-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13_1)) (v1 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_1) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S256x128 : Shape := ⟨2, ![256, 128]⟩
abbrev S128x64 : Shape := ⟨2, ![128, 64]⟩
abbrev S64x32 : Shape := ⟨2, ![64, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S256 : Shape := ⟨1, ![256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128x256 .f32) (main_arg12 : FVec F S256 .f32) (main_arg13 : FVec F S256x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg11
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg13
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg14 main_v63 main_v67

def fn_part2 {F : FTy → Type} [FloatOps F] (main_arg7 : FVec F S32x64 .f32) (main_arg8 : FVec F S64 .f32) (main_arg9 : FVec F S64x128 .f32) (main_arg10 : FVec F S128 .f32) (main_arg11 : FVec F S128x256 .f32) (main_arg12 : FVec F S256 .f32) (main_arg13 : FVec F S256x128 .f32) (main_arg14 : FVec F S128 .f32) (main_v33 : IVec S_ 1) : IVec S_ 1 :=
  let main_v34 : FVec F S32x64 .f32 := Host.absf main_arg7
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128x64 .f32) (main_arg5 : FVec F S64x32 .f32) (main_arg6 : FVec F S32 .f32) (main_arg7 : FVec F S32x64 .f32) (main_arg8 : FVec F S64 .f32) (main_arg9 : FVec F S64x128 .f32) (main_arg10 : FVec F S128 .f32) (main_arg11 : FVec F S128x256 .f32) (main_arg12 : FVec F S256 .f32) (main_arg13 : FVec F S256x128 .f32) (main_arg14 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S10000x128 .f32) (main_arg1 : FVec F S10000x10000 .f32) (main_arg2 : FVec F S128x256 .f32) (main_arg3 : FVec F S256x128 .f32) (main_arg4 : FVec F S128x64 .f32) (main_arg5 : FVec F S64x32 .f32) (main_arg6 : FVec F S32 .f32) (main_arg7 : FVec F S32x64 .f32) (main_arg8 : FVec F S64 .f32) (main_arg9 : FVec F S64x128 .f32) (main_arg10 : FVec F S128 .f32) (main_arg11 : FVec F S128x256 .f32) (main_arg12 : FVec F S256 .f32) (main_arg13 : FVec F S256x128 .f32) (main_arg14 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S256x128 : Shape := ⟨2, ![256, 128]⟩
abbrev S128x64 : Shape := ⟨2, ![128, 64]⟩
abbrev S64x32 : Shape := ⟨2, ![64, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S256 : Shape := ⟨1, ![256]⟩
abbrev S400x10000 : Shape := ⟨2, ![400, 10000]⟩
abbrev S400x128 : Shape := ⟨2, ![400, 128]⟩
abbrev S400x256 : Shape := ⟨2, ![400, 256]⟩
abbrev S10000x64 : Shape := ⟨2, ![10000, 64]⟩
abbrev S400x64 : Shape := ⟨2, ![400, 64]⟩
abbrev S1x32 : Shape := ⟨2, ![1, 32]⟩
abbrev S1x64 : Shape := ⟨2, ![1, 64]⟩
abbrev S1x128 : Shape := ⟨2, ![1, 128]⟩
abbrev S1x256 : Shape := ⟨2, ![1, 256]⟩
abbrev S10000x32 : Shape := ⟨2, ![10000, 32]⟩
abbrev S400x32 : Shape := ⟨2, ![400, 32]⟩

abbrev nBuf : Space → Nat
  | .hbm => 30
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256x128, .f32⟩
  | .hbm, ⟨4, _⟩ => ⟨S128x64, .f32⟩
  | .hbm, ⟨5, _⟩ => ⟨S64x32, .f32⟩
  | .hbm, ⟨6, _⟩ => ⟨S32, .f32⟩
  | .hbm, ⟨7, _⟩ => ⟨S32x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S10000x128, .bf16⟩
  | .hbm, ⟨16, _⟩ => ⟨S10000x128, .bf16⟩
  | .hbm, ⟨17, _⟩ => ⟨S10000x64, .bf16⟩
  | .hbm, ⟨18, _⟩ => ⟨S1x32, .f32⟩
  | .hbm, ⟨19, _⟩ => ⟨S1x64, .f32⟩
  | .hbm, ⟨20, _⟩ => ⟨S1x128, .f32⟩
  | .hbm, ⟨21, _⟩ => ⟨S1x256, .f32⟩
  | .hbm, ⟨22, _⟩ => ⟨S1x128, .f32⟩
  | .hbm, ⟨23, _⟩ => ⟨S1x32, .f32⟩
  | .hbm, ⟨24, _⟩ => ⟨S1x64, .f32⟩
  | .hbm, ⟨25, _⟩ => ⟨S1x128, .f32⟩
  | .hbm, ⟨26, _⟩ => ⟨S1x256, .f32⟩
  | .hbm, ⟨27, _⟩ => ⟨S1x128, .f32⟩
  | .hbm, ⟨28, _⟩ => ⟨S10000x32, .f32⟩
  | .hbm, ⟨29, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S128x256, .f32⟩
  | .local _ .vmem, ⟨4, _⟩ => ⟨S256x128, .f32⟩
  | .local _ .vmem, ⟨5, _⟩ => ⟨S400x128, .bf16⟩
  | .local _ .vmem, ⟨6, _⟩ => ⟨S400x128, .bf16⟩
  | .local _ .vmem, ⟨7, _⟩ => ⟨S400x10000, .f32⟩
  | .local _ .vmem, ⟨8, _⟩ => ⟨S400x10000, .f32⟩
  | .local _ .vmem, ⟨9, _⟩ => ⟨S10000x128, .bf16⟩
  | .local _ .vmem, ⟨10, _⟩ => ⟨S128x64, .f32⟩
  | .local _ .vmem, ⟨11, _⟩ => ⟨S400x64, .bf16⟩
  | .local _ .vmem, ⟨12, _⟩ => ⟨S400x64, .bf16⟩
  | .local _ .vmem, ⟨13, _⟩ => ⟨S400x10000, .f32⟩
  | .local _ .vmem, ⟨14, _⟩ => ⟨S400x10000, .f32⟩
  | .local _ .vmem, ⟨15, _⟩ => ⟨S10000x64, .bf16⟩
  | .local _ .vmem, ⟨16, _⟩ => ⟨S64x32, .f32⟩
  | .local _ .vmem, ⟨17, _⟩ => ⟨S1x32, .f32⟩
  | .local _ .vmem, ⟨18, _⟩ => ⟨S32x64, .f32⟩
  | .local _ .vmem, ⟨19, _⟩ => ⟨S1x64, .f32⟩
  | .local _ .vmem, ⟨20, _⟩ => ⟨S64x128, .f32⟩
  | .local _ .vmem, ⟨21, _⟩ => ⟨S1x128, .f32⟩
  | .local _ .vmem, ⟨22, _⟩ => ⟨S128x256, .f32⟩
  | .local _ .vmem, ⟨23, _⟩ => ⟨S1x256, .f32⟩
  | .local _ .vmem, ⟨24, _⟩ => ⟨S256x128, .f32⟩
  | .local _ .vmem, ⟨25, _⟩ => ⟨S1x128, .f32⟩
  | .local _ .vmem, ⟨26, _⟩ => ⟨S400x32, .f32⟩
  | .local _ .vmem, ⟨27, _⟩ => ⟨S400x32, .f32⟩
  | .local _ .vmem, ⟨28, _⟩ => ⟨S400x128, .f32⟩
  | .local _ .vmem, ⟨29, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg10_0 : Ref sig .tc := ⟨.vmem, 24, rfl⟩
abbrev cc2_stg11_0 : Ref sig .tc := ⟨.vmem, 25, rfl⟩
abbrev cc2_stg12_0 : Ref sig .tc := ⟨.vmem, 26, rfl⟩
abbrev cc2_stg12_1 : Ref sig .tc := ⟨.vmem, 27, rfl⟩
abbrev cc2_stg13_0 : Ref sig .tc := ⟨.vmem, 28, rfl⟩
abbrev cc2_stg13_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem11_0 : DmaSem sig := 25
abbrev cc2_sem12_0 : DmaSem sig := 26
abbrev cc2_sem12_1 : DmaSem sig := 27
abbrev cc2_sem13_0 : DmaSem sig := 28
abbrev cc2_sem13_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S400x32 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S400x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  inb_S256x128_S256x128_0_0 : ∀ a, (![0, 0] : Fin 2 → Nat) a + S256x128.size a ≤ S256x128.size a
  h_S256x128 : 0 < S256x128.numel
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  shapeCasts_S32_S1x32 : S32.ShapeCasts S1x32
  shapeCasts_S64_S1x64 : S64.ShapeCasts S1x64
  shapeCasts_S128_S1x128 : S128.ShapeCasts S1x128
  shapeCasts_S256_S1x256 : S256.ShapeCasts S1x256
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S400x32_S400x32_0_0 : ∀ a, (![0, 0] : Fin 2 → Nat) a + S400x32.size a ≤ S400x32.size a
  h_S400x32 : 0 < S400x32.numel
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  dot_S400x256_S256x128_S400x128_1_0_0_1_n_n_wf : DotDims.WF S400x256 S256x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  dot_S400x64_S64x32_S400x32_1_0_0_1_n_n_wf : DotDims.WF S400x64 S64x32 S400x32 [1] [0] [0] [1] [] []
  dot_S400x32_S32x64_S400x64_1_0_0_1_n_n_wf : DotDims.WF S400x32 S32x64 S400x64 [1] [0] [0] [1] [] []
  dot_S400x64_S64x128_S400x128_1_0_0_1_n_n_wf : DotDims.WF S400x64 S64x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .bf16 = 32 ∨ (Rect.block (s := S10000x128) S400x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .bf16 = 32 ∨ (Rect.block (s := S10000x64) S400x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x64.size a ≤ S32x64.size a
  hwx2_4 : ∀ i : grid2.Coords, EltTy.bits .f32 = 32 ∨ (Rect.block (s := S32x64) S32x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x128.size a ≤ S64x128.size a
  hwx2_6 : ∀ i : grid2.Coords, EltTy.bits .f32 = 32 ∨ (Rect.block (s := S64x128) S64x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x256.size a ≤ S128x256.size a
  hwx2_8 : ∀ i : grid2.Coords, EltTy.bits .f32 = 32 ∨ (Rect.block (s := S128x256) S128x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S256x128.size a ≤ S256x128.size a
  hwx2_10 : ∀ i : grid2.Coords, EltTy.bits .f32 = 32 ∨ (Rect.block (s := S256x128) S256x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S400x32.size a ≤ S10000x32.size a
  hwx2_12 : ∀ i : grid2.Coords, EltTy.bits .f32 = 32 ∨ (Rect.block (s := S10000x32) S400x32.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S400x128.size a ≤ S10000x128.size a
  hwx2_13 : ∀ i : grid2.Coords, EltTy.bits .f32 = 32 ∨ (Rect.block (s := S10000x128) S400x128.size (cc2_transform_13 i) (hinb2_13 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x32_S400x32_1_0_0_1_n_n : DotDims S400x64 S64x32 S400x32 where
  lhsContracting := [1]
  rhsContracting := [0]
  lhsNonContracting := [0]
  rhsNonContracting := [1]
  lhsBatch := []
  rhsBatch := []
  wf := dot_S400x64_S64x32_S400x32_1_0_0_1_n_n_wf
def dot_S400x32_S32x64_S400x64_1_0_0_1_n_n : DotDims S400x32 S32x64 S400x64 where
  lhsContracting := [1]
  rhsContracting := [0]
  lhsNonContracting := [0]
  rhsNonContracting := [1]
  lhsBatch := []
  rhsBatch := []
  wf := dot_S400x32_S32x64_S400x64_1_0_0_1_n_n_wf
def dot_S400x64_S64x128_S400x128_1_0_0_1_n_n : DotDims S400x64 S64x128 S400x128 where
  lhsContracting := [1]
  rhsContracting := [0]
  lhsNonContracting := [0]
  rhsNonContracting := [1]
  lhsBatch := []
  rhsBatch := []
  wf := dot_S400x64_S64x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S32x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S64x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v10) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg11) S128x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v11) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg13) S256x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v12) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v13_0) S400x32.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v13_1) S400x128.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S256x128 : Shape := ⟨2, ![256, 128]⟩
abbrev S128x64 : Shape := ⟨2, ![128, 64]⟩
abbrev S64x32 : Shape := ⟨2, ![64, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S256 : Shape := ⟨1, ![256]⟩
abbrev S10000x256 : Shape := ⟨2, ![10000, 256]⟩
abbrev S_ : Shape := ⟨0, ![]⟩
abbrev S10000x64 : Shape := ⟨2, ![10000, 64]⟩
abbrev S10000x32 : Shape := ⟨2, ![10000, 32]⟩
abbrev S1x32 : Shape := ⟨2, ![1, 32]⟩
abbrev S1x64 : Shape := ⟨2, ![1, 64]⟩
abbrev S1x128 : Shape := ⟨2, ![1, 128]⟩
abbrev S1x256 : Shape := ⟨2, ![1, 256]⟩

abbrev nBuf : Space → Nat
  | .hbm => 59
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256x128, .f32⟩
  | .hbm, ⟨4, _⟩ => ⟨S128x64, .f32⟩
  | .hbm, ⟨5, _⟩ => ⟨S64x32, .f32⟩
  | .hbm, ⟨6, _⟩ => ⟨S32, .f32⟩
  | .hbm, ⟨7, _⟩ => ⟨S32x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S10000x256, .f32⟩
  | .hbm, ⟨16, _⟩ => ⟨S10000x256, .f32⟩
  | .hbm, ⟨17, _⟩ => ⟨S_, .f32⟩
  | .hbm, ⟨18, _⟩ => ⟨S10000x256, .f32⟩
  | .hbm, ⟨19, _⟩ => ⟨S10000x256, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S10000x64, .f32⟩
  | .hbm, ⟨26, _⟩ => ⟨S10000x64, .f32⟩
  | .hbm, ⟨27, _⟩ => ⟨S_, .f32⟩
  | .hbm, ⟨28, _⟩ => ⟨S10000x64, .f32⟩
  | .hbm, ⟨29, _⟩ => ⟨S10000x64, .f32⟩
  | .hbm, ⟨30, _⟩ => ⟨S10000x32, .f32⟩
  | .hbm, ⟨31, _⟩ => ⟨S1x32, .f32⟩
  | .hbm, ⟨32, _⟩ => ⟨S10000x32, .f32⟩
  | .hbm, ⟨33, _⟩ => ⟨S10000x32, .f32⟩
  | .hbm, ⟨34, _⟩ => ⟨S10000x64, .f32⟩
  | .hbm, ⟨35, _⟩ => ⟨S1x64, .f32⟩
  | .hbm, ⟨36, _⟩ => ⟨S10000x64, .f32⟩
  | .hbm, ⟨37, _⟩ => ⟨S10000x64, .f32⟩
  | .hbm, ⟨38, _⟩ => ⟨S_, .f32⟩
  | .hbm, ⟨39, _⟩ => ⟨S10000x64, .f32⟩
  | .hbm, ⟨40, _⟩ => ⟨S10000x64, .f32⟩
  | .hbm, ⟨41, _⟩ => ⟨S10000x128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S10000x256, .f32⟩
  | .hbm, ⟨49, _⟩ => ⟨S1x256, .f32⟩
  | .hbm, ⟨50, _⟩ => ⟨S10000x256, .f32⟩
  | .hbm, ⟨51, _⟩ => ⟨S10000x256, .f32⟩
  | .hbm, ⟨52, _⟩ => ⟨S_, .f32⟩
  | .hbm, ⟨53, _⟩ => ⟨S10000x256, .f32⟩
  | .hbm, ⟨54, _⟩ => ⟨S10000x256, .f32⟩
  | .hbm, ⟨55, _⟩ => ⟨S10000x128, .f32⟩
  | .hbm, ⟨56, _⟩ => ⟨S1x128, .f32⟩
  | .hbm, ⟨57, _⟩ => ⟨S10000x128, .f32⟩
  | .hbm, ⟨58, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_cst : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_cst : Ref sig .tc := ⟨.hbm, 22, rfl⟩
abbrev main_call1_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call2_cst : Ref sig .tc := ⟨.hbm, 27, rfl⟩
abbrev main_call2_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call3_cst : Ref sig .tc := ⟨.hbm, 38, rfl⟩
abbrev main_call3_v0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call4_cst : Ref sig .tc := ⟨.hbm, 45, rfl⟩
abbrev main_call4_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call5_cst : Ref sig .tc := ⟨.hbm, 52, rfl⟩
abbrev main_call5_v0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  bcast_S_S10000x128 : S_.BroadcastsInDim S10000x128 (![] : Fin 0 → Fin S10000x128.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x32_S32x64_S10000x64_1_0_0_1_n_n_wf : DotDims.WF S10000x32 S32x64 S10000x64 [1] [0] [0] [1] [] []
  dot_S10000x64_S64x128_S10000x128_1_0_0_1_n_n_wf : DotDims.WF S10000x64 S64x128 S10000x128 [1] [0] [0] [1] [] []

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

class Facts : Prop extends Facts₀ where

variable [Facts]
-- ==== Proof.Mat.lean ====
/-
  Matrices of extended reals by coordinates, and the printed vector operations read as matrix operations.

  Both programs are chains of four operations on rank-2 arrays: a product of an n×k by a k×m array (the kernel's
  product accumulates into a zero array, the reference's has no accumulator: the same sum), the entrywise maximum
  with zero, the sum with a vector laid along every row, and a change of float format (the identity on extended
  reals). Read by coordinates, `cur v i j = v (i, j)`, each becomes an operation on functions
  `Fin n → Fin m → EReal` in which a ROW of the result depends on the same row of the left operand only; so a
  block of rows of a chain is the chain of the block (`rowsAt`, by unfolding). The one algebraic law is the
  associativity of the product, which needs every entry of the three factors to be a real number: products
  distribute over finite sums of reals, not over sums that may hold both infinities.
-/
import Idealize.ShloMosaic.Lib.StackMember

noncomputable section

open scoped BigOperators

namespace Cert.Mat

open Idealize.ShloMosaic Idealize.ShloMosaic.ValueIdx

/-- An n×m matrix of extended reals, by coordinates. -/
abbrev Mat (n m : Nat) : Type := Fin n → Fin m → EReal

variable {n n' k l m : Nat} {φ φ₁ φ₂ : FTy}

/-- The product: entry (i, j) is row i of `x` against column j of `y`. -/
def mm (x : Mat n k) (y : Mat k m) : Mat n m := fun i j => ∑ c : Fin k, x i c * y c j
/-- The entrywise maximum with zero. -/
def relu (x : Mat n m) : Mat n m := fun i j => max (x i j) 0
/-- A vector added to every row. -/
def addRow (x : Mat n m) (b : Fin m → EReal) : Mat n m := fun i j => x i j + b j
/-- The rows `ρ 0, ρ 1, …` of a matrix. -/
def rowsAt (ρ : Fin n → Fin n') (x : Mat n' m) : Mat n m := fun i j => x (ρ i) j

/-- A rank-2 array read by coordinates. (At the ideal instance an array of any float format is a function to the
    extended reals; the format is not part of the type here.) -/
def cur (v : (⟨2, ![n, m]⟩ : Shape).Idx → EReal) : Mat n m := fun i j => v (ix2 i j)
/-- A rank-1 array read by its coordinate. -/
def curv (v : (⟨1, ![n]⟩ : Shape).Idx → EReal) : Fin n → EReal := fun j => v (ix1 j)

/-- The rank-2 array with the given coordinates. -/
def uncur (x : Mat n m) : (⟨2, ![n, m]⟩ : Shape).Idx → EReal := fun i => x (i 0) (i 1)

theorem cur_uncur (x : Mat n m) : cur (uncur x) = x := rfl
theorem uncur_cur (v : (⟨2, ![n, m]⟩ : Shape).Idx → EReal) : uncur (cur v) = v :=
  funext fun i => (congrArg v (eq_ix2 i)).symm

/-- Two arrays with the same coordinates are equal. -/
theorem cur_injective {v w : (⟨2, ![n, m]⟩ : Shape).Idx → EReal} (h : cur v = cur w) : v = w := by
  funext i
  rw [eq_ix2 i]
  exact congrFun (congrFun h (i 0)) (i 1)

/-! ## A row of a chain depends on that row of its left operand -/

theorem rowsAt_mm (ρ : Fin n → Fin n') (x : Mat n' k) (y : Mat k m) : rowsAt ρ (mm x y) = mm (rowsAt ρ x) y := rfl
theorem rowsAt_relu (ρ : Fin n → Fin n') (x : Mat n' m) : rowsAt ρ (relu x) = relu (rowsAt ρ x) := rfl
theorem rowsAt_addRow (ρ : Fin n → Fin n') (x : Mat n' m) (b : Fin m → EReal) :
    rowsAt ρ (addRow x b) = addRow (rowsAt ρ x) b := rfl

/-! ## The printed operations, by coordinates -/

/-- The reference's product of an n×k by a k×m array. -/
theorem cur_dotGeneral (prec : Option ContractPrecision) (A : FVec Ideal ⟨2, ![n, k]⟩ φ₁) (B : FVec Ideal ⟨2, ![k, m]⟩ φ₂) :
    cur (Host.dotGeneral (DotDims.plain n k m) prec A B) = mm (cur A) (cur B) := by
  funext i j
  exact StackMember.dotGeneral_plain_apply prec A B i j

/-- The kernel's product into a zero accumulator is the same sum. -/
theorem cur_matmul (prec : Option ContractPrecision) (A : FVec Ideal ⟨2, ![n, k]⟩ φ₁) (B : FVec Ideal ⟨2, ![k, m]⟩ φ₂) :
    cur (matmul (DotDims.plain n k m) prec A B (constant ⟨2, ![n, m]⟩ .f32 0x00000000#32)) = mm (cur A) (cur B) := by
  rw [matmul_zero_eq_dotGeneral]
  exact cur_dotGeneral prec A B

/-- A change of float format is the identity on extended reals. -/
theorem cur_truncf {ψ : FTy} (v : FVec Ideal ⟨2, ![n, m]⟩ φ) (h : ψ.bits < φ.bits) :
    cur (truncf ψ v h : FVec Ideal ⟨2, ![n, m]⟩ ψ) = cur v := rfl

/-- A cast to the same shape is the identity. -/
theorem cur_shapeCast_self (v : FVec Ideal ⟨2, ![n, m]⟩ φ) (h : (⟨2, ![n, m]⟩ : Shape).ShapeCasts ⟨2, ![n, m]⟩) :
    cur (shapeCast ⟨2, ![n, m]⟩ v h) = cur v := by
  rw [shapeCast_self]

/-- The kernel's maximum with the splat of the scalar zero. -/
theorem cur_maximumf_splat (v : FVec Ideal ⟨2, ![n, m]⟩ .f32) :
    cur (maximumf v (broadcast ⟨2, ![n, m]⟩ (Scalar.ofBits (F := Ideal) .f32 0x00000000#32))) = relu (cur v) := by
  funext i j
  show max (v (ix2 i j)) (Ideal.ofBits .f32 0x00000000#32) = max (v (ix2 i j)) 0
  rw [Ideal.ofBits_zero_f32]

/-- The reference's maximum with the rank-0 zero broadcast to the array's shape. -/
theorem cur_maximumf_bcast (v : FVec Ideal ⟨2, ![n, m]⟩ .f32) (h : (⟨0, ![]⟩ : Shape).BroadcastsInDim ⟨2, ![n, m]⟩ ![]) :
    cur (maximumf v (broadcastInDim ⟨2, ![n, m]⟩ ![] h (constant (F := Ideal) ⟨0, ![]⟩ .f32 0x00000000#32))) = relu (cur v) := by
  funext i j
  show max (v (ix2 i j)) (Ideal.ofBits .f32 0x00000000#32) = max (v (ix2 i j)) 0
  rw [Ideal.ofBits_zero_f32]

/-- The kernel's sum with a one-row block laid down the rows (its cast to its own shape first). -/
theorem cur_addf_rowBlock (x : FVec Ideal ⟨2, ![n, m]⟩ .f32) (y : FVec Ideal ⟨2, ![1, m]⟩ .f32)
    (h1 : (⟨2, ![1, m]⟩ : Shape).ShapeCasts ⟨2, ![1, m]⟩) (hb : (⟨2, ![1, m]⟩ : Shape).Broadcasts ⟨2, ![n, m]⟩) :
    cur (addf x (broadcastTo ⟨2, ![n, m]⟩ (shapeCast ⟨2, ![1, m]⟩ y h1) hb)) = addRow (cur x) (fun j => y (ix2 (0 : Fin 1) j)) := by
  funext i j
  rw [shapeCast_self]
  show x (ix2 i j) + broadcastTo ⟨2, ![n, m]⟩ y hb (ix2 i j) = x (ix2 i j) + y (ix2 (0 : Fin 1) j)
  refine congrArg (x (ix2 i j) + ·) (broadcastTo_apply y hb (ix2 i j) (ix2 (0 : Fin 1) j) ?_)
  intro a
  match a with
  | ⟨0, _⟩ => rfl
  | ⟨1, _⟩ =>
    show j.val = if m = 1 then 0 else j.val
    split
    · have := j.isLt; omega
    · rfl

/-- The reference's sum with a vector made a one-row array and broadcast down the rows. -/
theorem cur_addf_rowVec (x : FVec Ideal ⟨2, ![n, m]⟩ .f32) (b : FVec Ideal ⟨1, ![m]⟩ .f32)
    (h1 : (⟨1, ![m]⟩ : Shape).BroadcastsInDim ⟨2, ![1, m]⟩ ![1]) (hb : (⟨2, ![1, m]⟩ : Shape).BroadcastsInDim ⟨2, ![n, m]⟩ ![0, 1]) :
    cur (addf x (broadcastInDim ⟨2, ![n, m]⟩ ![0, 1] hb (broadcastInDim ⟨2, ![1, m]⟩ ![1] h1 b))) = addRow (cur x) (curv b) := by
  funext i j
  show x (ix2 i j) + broadcastInDim ⟨2, ![n, m]⟩ ![0, 1] hb (broadcastInDim ⟨2, ![1, m]⟩ ![1] h1 b) (ix2 i j) = x (ix2 i j) + b (ix1 j)
  rw [broadcastInDim_oneRow_apply]
  refine congrArg (x (ix2 i j) + ·) (broadcastInDim_apply ![1] h1 b (ix2 (0 : Fin 1) j) (ix1 j) ?_)
  intro a
  match a with
  | ⟨0, _⟩ =>
    show j.val = if m = 1 then 0 else j.val
    split
    · have := j.isLt; omega
    · rfl

/-- A vector reshaped to a one-row array, read in that row. -/
theorem shapeCast_row_apply (b : FVec Ideal ⟨1, ![m]⟩ φ) (h : (⟨1, ![m]⟩ : Shape).ShapeCasts ⟨2, ![1, m]⟩) (j : Fin m) :
    shapeCast ⟨2, ![1, m]⟩ b h (ix2 (0 : Fin 1) j) = b (ix1 j) := by
  refine shapeCast_apply b h (ix2 (0 : Fin 1) j) (ix1 j) ?_
  rw [Shape.rowMajor_val_two, Shape.rowMajor_val_one]
  show j.val = 0 * m + j.val
  omega

/-! ## Associativity of the product, for real entries -/

/-- Every entry is a real number. -/
def IsReal (x : Mat n m) : Prop := ∀ i j, ∃ r : ℝ, x i j = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (A·X)·W = A·(X·W) when every entry of the three factors is real. -/
theorem mm_assoc_of_real (A : Mat n k) (X : Mat k l) (W : Mat l m) (hA : IsReal A) (hX : IsReal X) (hW : IsReal W) :
    mm (mm A X) W = mm A (mm X W) := by
  choose a ha using hA
  choose x hx using hX
  choose w hw using hW
  funext i j
  have lhs : mm (mm A X) W i j = ((∑ c : Fin l, (∑ d : Fin k, a i d * x d c) * w c j : ℝ) : EReal) := by
    unfold mm
    rw [coe_sum]
    refine Finset.sum_congr rfl fun c _ => ?_
    rw [EReal.coe_mul, coe_sum, hw]
    congr 1
    refine Finset.sum_congr rfl fun d _ => ?_
    rw [EReal.coe_mul, ha, hx]
  have rhs : mm A (mm X W) i j = ((∑ d : Fin k, a i d * ∑ c : Fin l, x d c * w c j : ℝ) : EReal) := by
    unfold mm
    rw [coe_sum]
    refine Finset.sum_congr rfl fun d _ => ?_
    rw [EReal.coe_mul, coe_sum, ha]
    congr 1
    refine Finset.sum_congr rfl fun c _ => ?_
    rw [EReal.coe_mul, hx, hw]
  rw [lhs, rhs]
  congr 1
  simp only [Finset.sum_mul, Finset.mul_sum]
  rw [Finset.sum_comm]
  refine Finset.sum_congr rfl fun d _ => Finset.sum_congr rfl fun c _ => ?_
  ring

end Cert.Mat

end
-- ==== Proof.Gae.lean ====
/-
  The graph autoencoder's forward pass on matrices of extended reals, as the kernel groups it and as the reference
  groups it.

  With A the adjacency matrix, the encoder is three graph layers H ↦ relu (A · (H · W)) and the decoder four dense
  layers. The kernel runs three passes over blocks of rows of A and moves each layer's weight product into the
  previous pass: pass one leaves S₂ = relu ((A·X)·W₁)·W₂, pass two S₃ = relu (A·S₂)·W₃, pass three
  z = relu (A·S₃)·Wz + bz and the decoder of z. The reference computes relu (A·(X·W₁)) first. The two differ
  only in the grouping (A·X)·W₁ against A·(X·W₁): equal when A, X and W₁ hold real numbers. Every pass is a chain
  whose rows depend on the same rows of A only, so a block of rows of a pass's result is the pass on that block of A.
-/
import proofs.«163469_g27393301414357_cont_9to1_1617_3_alg».proof.Proof.Mat

noncomputable section

namespace Cert.Gae

open Cert.Mat

variable {n n' a b c d e f g h : Nat}

/-- Pass one as the kernel groups it: relu ((A·X)·W₁)·W₂. -/
def pass1K (A : Mat n a) (X : Mat a b) (W1 : Mat b c) (W2 : Mat c d) : Mat n d := mm (relu (mm (mm A X) W1)) W2
/-- The same as the reference groups it: relu (A·(X·W₁))·W₂. -/
def pass1R (A : Mat n a) (X : Mat a b) (W1 : Mat b c) (W2 : Mat c d) : Mat n d := mm (relu (mm A (mm X W1))) W2
/-- Pass two: relu (A·S)·W. -/
def pass2 (A : Mat n a) (S : Mat a b) (W : Mat b c) : Mat n c := mm (relu (mm A S)) W
/-- The latent code: relu (A·S)·Wz + bz. -/
def latent (A : Mat n a) (S : Mat a b) (Wz : Mat b c) (bz : Fin c → EReal) : Mat n c := addRow (mm (relu (mm A S)) Wz) bz
/-- One dense layer with relu: relu (Z·W + b). -/
def dense (Z : Mat n a) (W : Mat a b) (bias : Fin b → EReal) : Mat n b := relu (addRow (mm Z W) bias)
/-- The decoder: three dense layers with relu, then one without. -/
def decode (Z : Mat n a) (Wd1 : Mat a b) (bd1 : Fin b → EReal) (Wd2 : Mat b c) (bd2 : Fin c → EReal)
    (Wd3 : Mat c d) (bd3 : Fin d → EReal) (Wx : Mat d e) (bx : Fin e → EReal) : Mat n e :=
  addRow (mm (dense (dense (dense Z Wd1 bd1) Wd2 bd2) Wd3 bd3) Wx) bx

/-! ## Rows of a pass are the pass on those rows of A -/

theorem rowsAt_pass1K (ρ : Fin n → Fin n') (A : Mat n' a) (X : Mat a b) (W1 : Mat b c) (W2 : Mat c d) :
    rowsAt ρ (pass1K A X W1 W2) = pass1K (rowsAt ρ A) X W1 W2 := rfl
theorem rowsAt_pass2 (ρ : Fin n → Fin n') (A : Mat n' a) (S : Mat a b) (W : Mat b c) :
    rowsAt ρ (pass2 A S W) = pass2 (rowsAt ρ A) S W := rfl
theorem rowsAt_latent (ρ : Fin n → Fin n') (A : Mat n' a) (S : Mat a b) (Wz : Mat b c) (bz : Fin c → EReal) :
    rowsAt ρ (latent A S Wz bz) = latent (rowsAt ρ A) S Wz bz := rfl
theorem rowsAt_decode (ρ : Fin n → Fin n') (Z : Mat n' a) (Wd1 : Mat a b) (bd1 : Fin b → EReal) (Wd2 : Mat b c) (bd2 : Fin c → EReal)
    (Wd3 : Mat c d) (bd3 : Fin d → EReal) (Wx : Mat d e) (bx : Fin e → EReal) :
    rowsAt ρ (decode Z Wd1 bd1 Wd2 bd2 Wd3 bd3 Wx bx) = decode (rowsAt ρ Z) Wd1 bd1 Wd2 bd2 Wd3 bd3 Wx bx := rfl

/-! ## The two groupings of pass one -/

/-- relu ((A·X)·W₁)·W₂ = relu (A·(X·W₁))·W₂ when A, X and W₁ hold real numbers. -/
theorem pass1K_eq_pass1R (A : Mat n a) (X : Mat a b) (W1 : Mat b c) (W2 : Mat c d)
    (hA : IsReal A) (hX : IsReal X) (hW : IsReal W1) : pass1K A X W1 W2 = pass1R A X W1 W2 := by
  unfold pass1K pass1R
  rw [mm_assoc_of_real A X W1 hA hX hW]

end Cert.Gae

end
-- ==== Proof.KBody.lean ====
/-
  What each pass of the kernel stores, as a matrix expression of the blocks it loads.

  Pass one stores relu ((a·X)·W₁)·W₂ of its block a of rows of A; pass two relu (a·S)·W₃; pass three the latent
  rows z = relu (a·S)·Wz + bz and the decoder of z. Each product accumulates into a zero array and each format
  change is the identity on extended reals, so by coordinates the stored arrays are the passes of Gae.lean on the
  loaded blocks. The printed dimension records are the plain M×K by K×N record at their sizes.
-/
import proofs.«163469_g27393301414357_cont_9to1_1617_3_alg».proof.Proof.Gen.KernelIdeal.Skeleton
import proofs.«163469_g27393301414357_cont_9to1_1617_3_alg».proof.Proof.Gae

noncomputable section

namespace Cert.KernelIdeal.Body

open Idealize.ShloMosaic Cert.KernelIdeal Cert.KernelIdeal.Gen Cert.Mat Cert.Gae

/-! ## The printed dimension records -/

theorem dot_400_10000_128 : dot_S400x10000_S10000x128_S400x128_1_0_0_1_n_n = DotDims.plain 400 10000 128 := rfl
theorem dot_400_128_256 : dot_S400x128_S128x256_S400x256_1_0_0_1_n_n = DotDims.plain 400 128 256 := rfl
theorem dot_400_256_128 : dot_S400x256_S256x128_S400x128_1_0_0_1_n_n = DotDims.plain 400 256 128 := rfl
theorem dot_400_128_64 : dot_S400x128_S128x64_S400x64_1_0_0_1_n_n = DotDims.plain 400 128 64 := rfl
theorem dot_400_10000_64 : dot_S400x10000_S10000x64_S400x64_1_0_0_1_n_n = DotDims.plain 400 10000 64 := rfl
theorem dot_400_64_32 : dot_S400x64_S64x32_S400x32_1_0_0_1_n_n = DotDims.plain 400 64 32 := rfl
theorem dot_400_32_64 : dot_S400x32_S32x64_S400x64_1_0_0_1_n_n = DotDims.plain 400 32 64 := rfl
theorem dot_400_64_128 : dot_S400x64_S64x128_S400x128_1_0_0_1_n_n = DotDims.plain 400 64 128 := rfl

/-! ## The stored arrays by coordinates -/

/-- The sum with a one-row block laid down the rows. -/
theorem cur_addf_row {n m : Nat} (x : FVec Ideal ⟨2, ![n, m]⟩ .f32) (y : FVec Ideal ⟨2, ![1, m]⟩ .f32)
    (hb : (⟨2, ![1, m]⟩ : Shape).Broadcasts ⟨2, ![n, m]⟩) :
    cur (addf x (broadcastTo ⟨2, ![n, m]⟩ y hb)) = addRow (cur x) (fun j => y (ValueIdx.ix2 (0 : Fin 1) j)) := by
  funext i j
  show x (ValueIdx.ix2 i j) + broadcastTo ⟨2, ![n, m]⟩ y hb (ValueIdx.ix2 i j) = x (ValueIdx.ix2 i j) + y (ValueIdx.ix2 (0 : Fin 1) j)
  refine congrArg (x (ValueIdx.ix2 i j) + ·) (broadcastTo_apply y hb (ValueIdx.ix2 i j) (ValueIdx.ix2 (0 : Fin 1) j) ?_)
  intro a
  match a with
  | ⟨0, _⟩ => rfl
  | ⟨1, _⟩ =>
    show j.val = if m = 1 then 0 else j.val
    split
    · have := j.isLt; omega
    · rfl

/-- Pass one stores relu ((a·X)·W₁)·W₂. -/
theorem pass1_stored (a : Vec Ideal S400x10000 .f32) (x : Vec Ideal S10000x128 .bf16) (w1 : Vec Ideal S128x256 .f32) (w2 : Vec Ideal S256x128 .f32) :
    cur (k0_pay1 (F := Ideal) a x w1 w2) = pass1K (cur a) (cur x) (cur w1) (cur w2) := by
  unfold k0_pay1 pass1K
  simp only [dot_400_10000_128, dot_400_128_256, dot_400_256_128, cur_truncf, cur_matmul, cur_maximumf_splat, shapeCast_self]

/-- Pass two stores relu (a·S)·W₃. -/
theorem pass2_stored (a : Vec Ideal S400x10000 .f32) (s : Vec Ideal S10000x128 .bf16) (w3 : Vec Ideal S128x64 .f32) :
    cur (k1_pay1 (F := Ideal) a s w3) = pass2 (cur a) (cur s) (cur w3) := by
  unfold k1_pay1 pass2
  simp only [dot_400_10000_128, dot_400_128_64, cur_truncf, cur_matmul, cur_maximumf_splat, shapeCast_self]

/-- Pass three stores the latent rows relu (a·S)·Wz + bz. -/
theorem latent_stored (a : Vec Ideal S400x10000 .f32) (s : Vec Ideal S10000x64 .bf16) (wz : Vec Ideal S64x32 .f32) (bz : Vec Ideal S1x32 .f32) :
    cur (k2_pay2 (F := Ideal) a s wz bz) = latent (cur a) (cur s) (cur wz) (fun j => bz (ValueIdx.ix2 (0 : Fin 1) j)) := by
  unfold k2_pay2 latent
  simp only [dot_400_10000_64, dot_400_64_32, cur_truncf, cur_matmul, cur_maximumf_splat, shapeCast_self, cur_addf_row]

/-- … and the decoder of those rows. -/
theorem decode_stored (a : Vec Ideal S400x10000 .f32) (s : Vec Ideal S10000x64 .bf16) (wz : Vec Ideal S64x32 .f32) (bz : Vec Ideal S1x32 .f32)
    (wd1 : Vec Ideal S32x64 .f32) (bd1 : Vec Ideal S1x64 .f32) (wd2 : Vec Ideal S64x128 .f32) (bd2 : Vec Ideal S1x128 .f32)
    (wd3 : Vec Ideal S128x256 .f32) (bd3 : Vec Ideal S1x256 .f32) (wx : Vec Ideal S256x128 .f32) (bx : Vec Ideal S1x128 .f32) :
    cur (k2_pay1 (F := Ideal) (k2_pay3 (F := Ideal) a s wz bz wd1 bd1 wd2 bd2) wd3 bd3 wx bx)
      = decode (latent (cur a) (cur s) (cur wz) (fun j => bz (ValueIdx.ix2 (0 : Fin 1) j)))
          (cur wd1) (fun j => bd1 (ValueIdx.ix2 (0 : Fin 1) j)) (cur wd2) (fun j => bd2 (ValueIdx.ix2 (0 : Fin 1) j))
          (cur wd3) (fun j => bd3 (ValueIdx.ix2 (0 : Fin 1) j)) (cur wx) (fun j => bx (ValueIdx.ix2 (0 : Fin 1) j)) := by
  unfold k2_pay1 k2_pay3 decode dense
  simp only [dot_400_32_64, dot_400_64_128, dot_400_128_256, dot_400_256_128, shapeCast_self, cur_matmul, cur_maximumf_splat, cur_addf_row, latent_stored]

end Cert.KernelIdeal.Body

end
-- ==== Proof.KRegion0.lean ====
/-
  Pass one over the whole array: after its 25 grid points the pass's output array holds relu ((A·X)·W₁)·W₂, for
  whatever contents the pass finds in its four input arrays.

  Point t loads rows 400t … 400t+399 of A and the three other arrays whole, and writes back rows 400t … 400t+399
  of the output. What it stores is the pass on its block of A (KBody.lean), which is that block of rows of the pass
  on all of A; the 25 blocks of rows cover the output array.
-/
import proofs.«163469_g27393301414357_cont_9to1_1617_3_alg».proof.Proof.Gen.KernelIdeal.Frame
import proofs.«163469_g27393301414357_cont_9to1_1617_3_alg».proof.Proof.KBody

set_option maxRecDepth 16384

noncomputable section

namespace Cert.KernelIdeal.Region0

open Idealize.ShloMosaic Idealize.ShloMosaic.TcCoe Idealize.SL.Sem Idealize.ShloMosaic.ValueIdx Cert.KernelIdeal Cert.KernelIdeal.Gen Cert.KernelIdeal.Body Cert.Mat Cert.Gae

variable (V : (c : Dev nD) → (b : Ref sig .tc) → Buf (Elt Ideal) ((c : Thread nD τ).loc b))

theorem hz : (![0, 0] : Fin 2 → Nat) = fun _ => 0 := funext fun a => by fin_cases a <;> rfl

/-- Row p of block t is row 400t + p of the array. -/
def rowOf (t : Fin 25) (p : Fin 400) : Fin 10000 := ⟨t.val * 400 + p.val, by have := t.isLt; have := p.isLt; omega⟩

/-- The pass's arrays as it finds them, at their literal types. -/
abbrev arrA (c : Dev nD) : Vec Ideal S10000x10000 .f32 := V c main_arg1
abbrev arrX (c : Dev nD) : Vec Ideal S10000x128 .bf16 := V c main_v0
abbrev arrW1 (c : Dev nD) : Vec Ideal S128x256 .f32 := V c main_arg2
abbrev arrW2 (c : Dev nD) : Vec Ideal S256x128 .f32 := V c main_arg3
/-- The blocks point t loads. -/
abbrev blkA (c : Dev nD) (t : Fin cfg0.N) : Vec Ideal S400x10000 .f32 := iblk0 V c 0 t
abbrev blkX (c : Dev nD) (t : Fin cfg0.N) : Vec Ideal S10000x128 .bf16 := iblk0 V c 1 t
abbrev blkW1 (c : Dev nD) (t : Fin cfg0.N) : Vec Ideal S128x256 .f32 := iblk0 V c 2 t
abbrev blkW2 (c : Dev nD) (t : Fin cfg0.N) : Vec Ideal S256x128 .f32 := iblk0 V c 3 t

/-- The block indices over the grid: A and the output move down the rows with the point, the rest stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 25 :=
  (by decide +kernel : ∀ t : Fin grid0.N, _)

/-- The pass's output array, from the arrays it finds. -/
def out (c : Dev nD) : Vec Ideal S10000x128 .bf16 :=
  uncur (pass1K (cur (arrA V c)) (cur (arrX V c)) (cur (arrW1 V c)) (cur (arrW2 V c)))

theorem blkA_cur (c : Dev nD) (t : Fin cfg0.N) (ht : t.val < 25) : cur (blkA V c t) = rowsAt (rowOf ⟨t.val, ht⟩) (cur (arrA V c)) := by
  obtain ⟨e0, e1, -⟩ := idx_facts t
  funext p q
  show V c main_arg1 (((cfg0.win 0).blk t).view.emb (ix2 p q)) = V c main_arg1 (ix2 (rowOf ⟨t.val, ht⟩ p) q)
  refine congrArg _ (funext fun a => Fin.ext ?_)
  match a with
  | ⟨0, _⟩ => show win0_0.index t (0 : Fin 2) * 400 + 1 * p.val = t.val * 400 + p.val; omega
  | ⟨1, _⟩ => show win0_0.index t (1 : Fin 2) * 10000 + 1 * q.val = q.val; omega

theorem blkX_eq (c : Dev nD) (t : Fin cfg0.N) : blkX V c t = arrX V c := by
  obtain ⟨-, -, e0, e1, -⟩ := idx_facts t
  funext j
  show V c main_v0 (((cfg0.win 1).blk t).view.emb j) = V c main_v0 j
  refine congrArg _ (funext fun a => Fin.ext ?_)
  match a with
  | ⟨0, _⟩ => show win0_1.index t (0 : Fin 2) * 10000 + 1 * (j 0).val = (j 0).val; omega
  | ⟨1, _⟩ => show win0_1.index t (1 : Fin 2) * 128 + 1 * (j 1).val = (j 1).val; omega

theorem blkW1_eq (c : Dev nD) (t : Fin cfg0.N) : blkW1 V c t = arrW1 V c := by
  obtain ⟨-, -, -, -, e0, e1, -⟩ := idx_facts t
  funext j
  show V c main_arg2 (((cfg0.win 2).blk t).view.emb j) = V c main_arg2 j
  refine congrArg _ (funext fun a => Fin.ext ?_)
  match a with
  | ⟨0, _⟩ => show win0_2.index t (0 : Fin 2) * 128 + 1 * (j 0).val = (j 0).val; omega
  | ⟨1, _⟩ => show win0_2.index t (1 : Fin 2) * 256 + 1 * (j 1).val = (j 1).val; omega

theorem blkW2_eq (c : Dev nD) (t : Fin cfg0.N) : blkW2 V c t = arrW2 V c := by
  obtain ⟨-, -, -, -, -, -, e0, e1, -⟩ := idx_facts t
  funext j
  show V c main_arg3 (((cfg0.win 3).blk t).view.emb j) = V c main_arg3 j
  refine congrArg _ (funext fun a => Fin.ext ?_)
  match a with
  | ⟨0, _⟩ => show win0_3.index t (0 : Fin 2) * 256 + 1 * (j 0).val = (j 0).val; omega
  | ⟨1, _⟩ => show win0_3.index t (1 : Fin 2) * 128 + 1 * (j 1).val = (j 1).val; omega

/-- What the body leaves in the output's buffer at point t: the stored array of the blocks the point loads. -/
theorem flushed_stored (c : Dev nD) (t : Fin cfg0.N) :
    (dat0 V c).flushed 4 t = k0_pay1 (F := Ideal) (blkA V c t) (blkX V c t) (blkW1 V c t) (blkW2 V c t) := by
  show (cfg0.win 4).cut (grid0.coords t) ((dat0 V c).after 4 t) = _
  rw [after0_4]
  unfold out0_4
  rw [View.canon_unit_zero hz]
  simp only [View.ld_unit_zero (S := S400x10000) hz, View.ld_unit_zero (S := S10000x128) hz, View.ld_unit_zero (S := S128x256) hz,
    View.ld_unit_zero (S := S256x128) hz]
  rfl

/-- The stored array is the rows 400t … of the pass on all of A. -/
theorem stored_rows (c : Dev nD) (t : Fin cfg0.N) (ht : t.val < 25) :
    cur (k0_pay1 (F := Ideal) (blkA V c t) (blkX V c t) (blkW1 V c t) (blkW2 V c t))
      = rowsAt (rowOf ⟨t.val, ht⟩) (pass1K (cur (arrA V c)) (cur (arrX V c)) (cur (arrW1 V c)) (cur (arrW2 V c))) := by
  refine (pass1_stored (blkA V c t) (blkX V c t) (blkW1 V c t) (blkW2 V c t)).trans ?_
  rw [blkA_cur V c t ht, blkX_eq V c t, blkW1_eq V c t, blkW2_eq V c t]
  rfl

/-- Block t of the output array, by coordinates, is rows 400t … of it. -/
theorem read_rows (c : Dev nD) (t : Fin cfg0.N) (ht : t.val < 25) (G : Vec Ideal S10000x128 .bf16) :
    cur (((cfg0.win 4).blk t).view.read (Elt Ideal) G : Vec Ideal S400x128 .bf16) = rowsAt (rowOf ⟨t.val, ht⟩) (cur G) := by
  obtain ⟨-, -, -, -, -, -, -, -, e0, e1, -⟩ := idx_facts t
  funext p q
  show G (((cfg0.win 4).blk t).view.emb (ix2 p q)) = G (ix2 (rowOf ⟨t.val, ht⟩ p) q)
  refine congrArg _ (funext fun a => Fin.ext ?_)
  match a with
  | ⟨0, _⟩ => show win0_4.index t (0 : Fin 2) * 400 + 1 * p.val = t.val * 400 + p.val; omega
  | ⟨1, _⟩ => show win0_4.index t (1 : Fin 2) * 128 + 1 * q.val = q.val; omega

/-- What point t writes back is block t of the pass's output array. -/
theorem flushed_eq (c : Dev nD) (t : Fin cfg0.N) :
    (dat0 V c).flushed 4 t = ((cfg0.win 4).blk t).view.read (Elt Ideal) (out V c) := by
  have ht : t.val < 25 := (idx_facts t).2.2.2.2.2.2.2.2.2.2
  rw [flushed_stored V c t]
  refine cur_injective (n := 400) (m := 128) ?_
  rw [stored_rows V c t ht, read_rows c t ht (out V c)]
  rfl

/-- An index is in point t's block iff each coordinate is in the block's range. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1).slice (win0_4.rect t)).set ↔ _
  rw [View.set_slice_whole, Rect.mem_set_unit]
  exact Iff.rfl

/-- Every block of rows is some point's. -/
theorem idx_onto : ∀ (r : Fin 25), ∃ t : Fin cfg0.N, win0_4.index t = ![r.val, 0] :=
  (by decide +kernel : ∀ (r : Fin 25), ∃ t : Fin grid0.N, win0_4.index t = ![r.val, 0])

/-- The 25 blocks of rows cover the output array. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, ht⟩ := idx_onto ⟨(i 0).val / 400, by omega⟩
  have q0 : win0_4.index t (0 : Fin 2) = (i 0).val / 400 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- After the pass its output array holds relu ((A·X)·W₁)·W₂ of the arrays it found. -/
theorem final (c : Dev nD) : (dat0 V c).arrAt 4 cfg0.N = out V c :=
  (dat0 V c).arrAt_eq_of_cover 4 (out V c) (fun t _ => flushed_eq V c t) (cover)

end Cert.KernelIdeal.Region0

end
-- ==== Proof.KRegion1.lean ====
/-
  Pass two over the whole array: after its 25 grid points the pass's output array holds relu (A·S)·W₃, for whatever
  contents the pass finds in its three input arrays.

  Point t loads rows 400t … 400t+399 of A and the two other arrays whole, and writes back rows 400t … 400t+399 of
  the output. What it stores is the pass on its block of A (KBody.lean), which is that block of rows of the pass on
  all of A; the 25 blocks of rows cover the output array.
-/
import proofs.«163469_g27393301414357_cont_9to1_1617_3_alg».proof.Proof.Gen.KernelIdeal.Frame
import proofs.«163469_g27393301414357_cont_9to1_1617_3_alg».proof.Proof.KBody

set_option maxRecDepth 16384

noncomputable section

namespace Cert.KernelIdeal.Region1

open Idealize.ShloMosaic Idealize.ShloMosaic.TcCoe Idealize.SL.Sem Idealize.ShloMosaic.ValueIdx Cert.KernelIdeal Cert.KernelIdeal.Gen Cert.KernelIdeal.Body Cert.Mat Cert.Gae

variable (V : (c : Dev nD) → (b : Ref sig .tc) → Buf (Elt Ideal) ((c : Thread nD τ).loc b))

theorem hz : (![0, 0] : Fin 2 → Nat) = fun _ => 0 := funext fun a => by fin_cases a <;> rfl

/-- Row p of block t is row 400t + p of the array. -/
def rowOf (t : Fin 25) (p : Fin 400) : Fin 10000 := ⟨t.val * 400 + p.val, by have := t.isLt; have := p.isLt; omega⟩

/-- The pass's arrays as it finds them, at their literal types. -/
abbrev arrA (c : Dev nD) : Vec Ideal S10000x10000 .f32 := V c main_arg1
abbrev arrS (c : Dev nD) : Vec Ideal S10000x128 .bf16 := V c main_v1
abbrev arrW3 (c : Dev nD) : Vec Ideal S128x64 .f32 := V c main_arg4
/-- The blocks point t loads. -/
abbrev blkA (c : Dev nD) (t : Fin cfg1.N) : Vec Ideal S400x10000 .f32 := iblk1 V c 0 t
abbrev blkS (c : Dev nD) (t : Fin cfg1.N) : Vec Ideal S10000x128 .bf16 := iblk1 V c 1 t
abbrev blkW3 (c : Dev nD) (t : Fin cfg1.N) : Vec Ideal S128x64 .f32 := iblk1 V c 2 t

/-- The block indices over the grid: A and the output move down the rows with the point, the rest stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 25 :=
  (by decide +kernel : ∀ t : Fin grid1.N, _)

/-- The pass's output array, from the arrays it finds. -/
def out (c : Dev nD) : Vec Ideal S10000x64 .bf16 :=
  uncur (pass2 (cur (arrA V c)) (cur (arrS V c)) (cur (arrW3 V c)))

theorem blkA_cur (c : Dev nD) (t : Fin cfg1.N) (ht : t.val < 25) : cur (blkA V c t) = rowsAt (rowOf ⟨t.val, ht⟩) (cur (arrA V c)) := by
  obtain ⟨e0, e1, -⟩ := idx_facts t
  funext p q
  show V c main_arg1 (((cfg1.win 0).blk t).view.emb (ix2 p q)) = V c main_arg1 (ix2 (rowOf ⟨t.val, ht⟩ p) q)
  refine congrArg _ (funext fun a => Fin.ext ?_)
  match a with
  | ⟨0, _⟩ => show win1_0.index t (0 : Fin 2) * 400 + 1 * p.val = t.val * 400 + p.val; omega
  | ⟨1, _⟩ => show win1_0.index t (1 : Fin 2) * 10000 + 1 * q.val = q.val; omega

theorem blkS_eq (c : Dev nD) (t : Fin cfg1.N) : blkS V c t = arrS V c := by
  obtain ⟨-, -, e0, e1, -⟩ := idx_facts t
  funext j
  show V c main_v1 (((cfg1.win 1).blk t).view.emb j) = V c main_v1 j
  refine congrArg _ (funext fun a => Fin.ext ?_)
  match a with
  | ⟨0, _⟩ => show win1_1.index t (0 : Fin 2) * 10000 + 1 * (j 0).val = (j 0).val; omega
  | ⟨1, _⟩ => show win1_1.index t (1 : Fin 2) * 128 + 1 * (j 1).val = (j 1).val; omega

theorem blkW3_eq (c : Dev nD) (t : Fin cfg1.N) : blkW3 V c t = arrW3 V c := by
  obtain ⟨-, -, -, -, e0, e1, -⟩ := idx_facts t
  funext j
  show V c main_arg4 (((cfg1.win 2).blk t).view.emb j) = V c main_arg4 j
  refine congrArg _ (funext fun a => Fin.ext ?_)
  match a with
  | ⟨0, _⟩ => show win1_2.index t (0 : Fin 2) * 128 + 1 * (j 0).val = (j 0).val; omega
  | ⟨1, _⟩ => show win1_2.index t (1 : Fin 2) * 64 + 1 * (j 1).val = (j 1).val; omega

/-- What the body leaves in the output's buffer at point t: the stored array of the blocks the point loads. -/
theorem flushed_stored (c : Dev nD) (t : Fin cfg1.N) :
    (dat1 V c).flushed 3 t = k1_pay1 (F := Ideal) (blkA V c t) (blkS V c t) (blkW3 V c t) := by
  show (cfg1.win 3).cut (grid1.coords t) ((dat1 V c).after 3 t) = _
  rw [after1_3]
  unfold out1_3
  rw [View.canon_unit_zero hz]
  simp only [View.ld_unit_zero (S := S400x10000) hz, View.ld_unit_zero (S := S10000x128) hz, View.ld_unit_zero (S := S128x64) hz]
  rfl

/-- The stored array is the rows 400t … of the pass on all of A. -/
theorem stored_rows (c : Dev nD) (t : Fin cfg1.N) (ht : t.val < 25) :
    cur (k1_pay1 (F := Ideal) (blkA V c t) (blkS V c t) (blkW3 V c t))
      = rowsAt (rowOf ⟨t.val, ht⟩) (pass2 (cur (arrA V c)) (cur (arrS V c)) (cur (arrW3 V c))) := by
  refine (pass2_stored (blkA V c t) (blkS V c t) (blkW3 V c t)).trans ?_
  rw [blkA_cur V c t ht, blkS_eq V c t, blkW3_eq V c t]
  rfl

/-- Block t of the output array, by coordinates, is rows 400t … of it. -/
theorem read_rows (c : Dev nD) (t : Fin cfg1.N) (ht : t.val < 25) (G : Vec Ideal S10000x64 .bf16) :
    cur (((cfg1.win 3).blk t).view.read (Elt Ideal) G : Vec Ideal S400x64 .bf16) = rowsAt (rowOf ⟨t.val, ht⟩) (cur G) := by
  obtain ⟨-, -, -, -, -, -, e0, e1, -⟩ := idx_facts t
  funext p q
  show G (((cfg1.win 3).blk t).view.emb (ix2 p q)) = G (ix2 (rowOf ⟨t.val, ht⟩ p) q)
  refine congrArg _ (funext fun a => Fin.ext ?_)
  match a with
  | ⟨0, _⟩ => show win1_3.index t (0 : Fin 2) * 400 + 1 * p.val = t.val * 400 + p.val; omega
  | ⟨1, _⟩ => show win1_3.index t (1 : Fin 2) * 64 + 1 * q.val = q.val; omega

/-- What point t writes back is block t of the pass's output array. -/
theorem flushed_eq (c : Dev nD) (t : Fin cfg1.N) :
    (dat1 V c).flushed 3 t = ((cfg1.win 3).blk t).view.read (Elt Ideal) (out V c) := by
  have ht : t.val < 25 := (idx_facts t).2.2.2.2.2.2.2.2
  rw [flushed_stored V c t]
  refine cur_injective (n := 400) (m := 64) ?_
  rw [stored_rows V c t ht, read_rows c t ht (out V c)]
  rfl

/-- An index is in point t's block iff each coordinate is in the block's range. -/
theorem mem_blk (t : Fin cfg1.N) (i : S10000x64.Idx) :
    i ∈ ((cfg1.win 3).blk t).view.set ↔ ∀ a : Fin 2, win1_3.index t a * S400x64.size a ≤ (i a).val ∧ (i a).val < win1_3.index t a * S400x64.size a + S400x64.size a := by
  show i ∈ ((View.whole main_v2).slice (win1_3.rect t)).set ↔ _
  rw [View.set_slice_whole, Rect.mem_set_unit]
  exact Iff.rfl

/-- Every block of rows is some point's. -/
theorem idx_onto : ∀ (r : Fin 25), ∃ t : Fin cfg1.N, win1_3.index t = ![r.val, 0] :=
  (by decide +kernel : ∀ (r : Fin 25), ∃ t : Fin grid1.N, win1_3.index t = ![r.val, 0])

/-- The 25 blocks of rows cover the output array. -/
theorem cover (i : S10000x64.Idx) : ∃ t : Fin cfg1.N, (cfg1.win 3).flush t = true ∧ i ∈ ((cfg1.win 3).blk t).view.set := by
  have hi0 : (i 0).val < 10000 := (i 0).isLt
  have hi1 : (i 1).val < 64 := (i 1).isLt
  obtain ⟨t, ht⟩ := idx_onto ⟨(i 0).val / 400, by omega⟩
  have q0 : win1_3.index t (0 : Fin 2) = (i 0).val / 400 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 64 ≤ (i 1).val ∧ (i 1).val < win1_3.index t (1 : Fin 2) * 64 + 64; omega

/-- After the pass its output array holds relu (A·S)·W₃ of the arrays it found. -/
theorem final (c : Dev nD) : (dat1 V c).arrAt 3 cfg1.N = out V c :=
  (dat1 V c).arrAt_eq_of_cover 3 (out V c) (fun t _ => flushed_eq V c t) (cover)

end Cert.KernelIdeal.Region1

end
-- ==== Proof.KRegion2.lean ====
/-
  Pass three over the whole arrays: after its 25 grid points the latent output holds z = relu (A·S)·Wz + bz and
  the reconstruction output holds the decoder of z, for whatever contents the pass finds in its twelve input arrays.

  Point t loads rows 400t … 400t+399 of A and the eleven other arrays whole (each bias as a one-row array), and
  writes back rows 400t … 400t+399 of both outputs. What it stores is the two chains on its block of A (KBody.lean),
  which are those rows of the chains on all of A; the 25 blocks of rows cover each output array.
-/
import proofs.«163469_g27393301414357_cont_9to1_1617_3_alg».proof.Proof.Gen.KernelIdeal.Frame
import proofs.«163469_g27393301414357_cont_9to1_1617_3_alg».proof.Proof.KBody

set_option maxRecDepth 16384

noncomputable section

namespace Cert.KernelIdeal.Region2

open Idealize.ShloMosaic Idealize.ShloMosaic.TcCoe Idealize.SL.Sem Idealize.ShloMosaic.ValueIdx Cert.KernelIdeal Cert.KernelIdeal.Gen Cert.KernelIdeal.Body Cert.Mat Cert.Gae

variable (V : (c : Dev nD) → (b : Ref sig .tc) → Buf (Elt Ideal) ((c : Thread nD τ).loc b))

theorem hz : (![0, 0] : Fin 2 → Nat) = fun _ => 0 := funext fun a => by fin_cases a <;> rfl

/-- Row p of block t is row 400t + p of the array. -/
def rowOf (t : Fin 25) (p : Fin 400) : Fin 10000 := ⟨t.val * 400 + p.val, by have := t.isLt; have := p.isLt; omega⟩

/-- The pass's arrays as it finds them, at their literal types. -/
abbrev arrA (c : Dev nD) : Vec Ideal S10000x10000 .f32 := V c main_arg1
abbrev arrS (c : Dev nD) : Vec Ideal S10000x64 .bf16 := V c main_v2
abbrev arrWz (c : Dev nD) : Vec Ideal S64x32 .f32 := V c main_arg5
abbrev arrBz (c : Dev nD) : Vec Ideal S1x32 .f32 := V c main_v8
abbrev arrWd1 (c : Dev nD) : Vec Ideal S32x64 .f32 := V c main_arg7
abbrev arrBd1 (c : Dev nD) : Vec Ideal S1x64 .f32 := V c main_v9
abbrev arrWd2 (c : Dev nD) : Vec Ideal S64x128 .f32 := V c main_arg9
abbrev arrBd2 (c : Dev nD) : Vec Ideal S1x128 .f32 := V c main_v10
abbrev arrWd3 (c : Dev nD) : Vec Ideal S128x256 .f32 := V c main_arg11
abbrev arrBd3 (c : Dev nD) : Vec Ideal S1x256 .f32 := V c main_v11
abbrev arrWx (c : Dev nD) : Vec Ideal S256x128 .f32 := V c main_arg13
abbrev arrBx (c : Dev nD) : Vec Ideal S1x128 .f32 := V c main_v12
/-- The blocks point t loads. -/
abbrev blkA (c : Dev nD) (t : Fin cfg2.N) : Vec Ideal S400x10000 .f32 := iblk2 V c 0 t
abbrev blkS (c : Dev nD) (t : Fin cfg2.N) : Vec Ideal S10000x64 .bf16 := iblk2 V c 1 t
abbrev blkWz (c : Dev nD) (t : Fin cfg2.N) : Vec Ideal S64x32 .f32 := iblk2 V c 2 t
abbrev blkBz (c : Dev nD) (t : Fin cfg2.N) : Vec Ideal S1x32 .f32 := iblk2 V c 3 t
abbrev blkWd1 (c : Dev nD) (t : Fin cfg2.N) : Vec Ideal S32x64 .f32 := iblk2 V c 4 t
abbrev blkBd1 (c : Dev nD) (t : Fin cfg2.N) : Vec Ideal S1x64 .f32 := iblk2 V c 5 t
abbrev blkWd2 (c : Dev nD) (t : Fin cfg2.N) : Vec Ideal S64x128 .f32 := iblk2 V c 6 t
abbrev blkBd2 (c : Dev nD) (t : Fin cfg2.N) : Vec Ideal S1x128 .f32 := iblk2 V c 7 t
abbrev blkWd3 (c : Dev nD) (t : Fin cfg2.N) : Vec Ideal S128x256 .f32 := iblk2 V c 8 t
abbrev blkBd3 (c : Dev nD) (t : Fin cfg2.N) : Vec Ideal S1x256 .f32 := iblk2 V c 9 t
abbrev blkWx (c : Dev nD) (t : Fin cfg2.N) : Vec Ideal S256x128 .f32 := iblk2 V c 10 t
abbrev blkBx (c : Dev nD) (t : Fin cfg2.N) : Vec Ideal S1x128 .f32 := iblk2 V c 11 t

/-- The block indices over the grid: A and the two outputs move down the rows with the point, the rest stay. -/
theorem idx_in : ∀ t : Fin cfg2.N, (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0) :=
  (by decide +kernel : ∀ t : Fin grid2.N, _)

theorem idx_out : ∀ t : Fin cfg2.N, win2_12.index t (0 : Fin 2) = t.val ∧ win2_12.index t (1 : Fin 2) = 0
    ∧ win2_13.index t (0 : Fin 2) = t.val ∧ win2_13.index t (1 : Fin 2) = 0 ∧ t.val < 25 :=
  (by decide +kernel : ∀ t : Fin grid2.N, _)

/-- The latent rows of all of A, from the arrays the pass finds. -/
def zMat (c : Dev nD) : Mat 10000 32 :=
  latent (cur (arrA V c)) (cur (arrS V c)) (cur (arrWz V c)) (fun j => arrBz V c (ix2 (0 : Fin 1) j))
/-- The pass's latent output array. -/
def outZ (c : Dev nD) : Vec Ideal S10000x32 .f32 := uncur (zMat V c)
/-- The pass's reconstruction output array: the decoder of the latent rows. -/
def outX (c : Dev nD) : Vec Ideal S10000x128 .f32 :=
  uncur (decode (zMat V c) (cur (arrWd1 V c)) (fun j => arrBd1 V c (ix2 (0 : Fin 1) j)) (cur (arrWd2 V c)) (fun j => arrBd2 V c (ix2 (0 : Fin 1) j))
    (cur (arrWd3 V c)) (fun j => arrBd3 V c (ix2 (0 : Fin 1) j)) (cur (arrWx V c)) (fun j => arrBx V c (ix2 (0 : Fin 1) j)))

theorem blkA_cur (c : Dev nD) (t : Fin cfg2.N) (ht : t.val < 25) : cur (blkA V c t) = rowsAt (rowOf ⟨t.val, ht⟩) (cur (arrA V c)) := by
  obtain ⟨⟨e0, e1⟩, -⟩ := idx_in t
  funext p q
  show V c main_arg1 (((cfg2.win 0).blk t).view.emb (ix2 p q)) = V c main_arg1 (ix2 (rowOf ⟨t.val, ht⟩ p) q)
  refine congrArg _ (funext fun a => Fin.ext ?_)
  match a with
  | ⟨0, _⟩ => show win2_0.index t (0 : Fin 2) * 400 + 1 * p.val = t.val * 400 + p.val; omega
  | ⟨1, _⟩ => show win2_0.index t (1 : Fin 2) * 10000 + 1 * q.val = q.val; omega

theorem blkS_eq (c : Dev nD) (t : Fin cfg2.N) : blkS V c t = arrS V c := by
  obtain ⟨-, ⟨e0, e1⟩, -⟩ := idx_in t
  funext j
  show V c main_v2 (((cfg2.win 1).blk t).view.emb j) = V c main_v2 j
  refine congrArg _ (funext fun a => Fin.ext ?_)
  match a with
  | ⟨0, _⟩ => show win2_1.index t (0 : Fin 2) * 10000 + 1 * (j 0).val = (j 0).val; omega
  | ⟨1, _⟩ => show win2_1.index t (1 : Fin 2) * 64 + 1 * (j 1).val = (j 1).val; omega

theorem blkWz_eq (c : Dev nD) (t : Fin cfg2.N) : blkWz V c t = arrWz V c := by
  obtain ⟨-, -, ⟨e0, e1⟩, -⟩ := idx_in t
  funext j
  show V c main_arg5 (((cfg2.win 2).blk t).view.emb j) = V c main_arg5 j
  refine congrArg _ (funext fun a => Fin.ext ?_)
  match a with
  | ⟨0, _⟩ => show win2_2.index t (0 : Fin 2) * 64 + 1 * (j 0).val = (j 0).val; omega
  | ⟨1, _⟩ => show win2_2.index t (1 : Fin 2) * 32 + 1 * (j 1).val = (j 1).val; omega

theorem blkBz_eq (c : Dev nD) (t : Fin cfg2.N) : blkBz V c t = arrBz V c := by
  obtain ⟨-, -, -, ⟨e0, e1⟩, -⟩ := idx_in t
  funext j
  show V c main_v8 (((cfg2.win 3).blk t).view.emb j) = V c main_v8 j
  refine congrArg _ (funext fun a => Fin.ext ?_)
  match a with
  | ⟨0, _⟩ => show win2_3.index t (0 : Fin 2) * 1 + 1 * (j 0).val = (j 0).val; omega
  | ⟨1, _⟩ => show win2_3.index t (1 : Fin 2) * 32 + 1 * (j 1).val = (j 1).val; omega

theorem blkWd1_eq (c : Dev nD) (t : Fin cfg2.N) : blkWd1 V c t = arrWd1 V c := by
  obtain ⟨-, -, -, -, ⟨e0, e1⟩, -⟩ := idx_in t
  funext j
  show V c main_arg7 (((cfg2.win 4).blk t).view.emb j) = V c main_arg7 j
  refine congrArg _ (funext fun a => Fin.ext ?_)
  match a with
  | ⟨0, _⟩ => show win2_4.index t (0 : Fin 2) * 32 + 1 * (j 0).val = (j 0).val; omega
  | ⟨1, _⟩ => show win2_4.index t (1 : Fin 2) * 64 + 1 * (j 1).val = (j 1).val; omega

theorem blkBd1_eq (c : Dev nD) (t : Fin cfg2.N) : blkBd1 V c t = arrBd1 V c := by
  obtain ⟨-, -, -, -, -, ⟨e0, e1⟩, -⟩ := idx_in t
  funext j
  show V c main_v9 (((cfg2.win 5).blk t).view.emb j) = V c main_v9 j
  refine congrArg _ (funext fun a => Fin.ext ?_)
  match a with
  | ⟨0, _⟩ => show win2_5.index t (0 : Fin 2) * 1 + 1 * (j 0).val = (j 0).val; omega
  | ⟨1, _⟩ => show win2_5.index t (1 : Fin 2) * 64 + 1 * (j 1).val = (j 1).val; omega

theorem blkWd2_eq (c : Dev nD) (t : Fin cfg2.N) : blkWd2 V c t = arrWd2 V c := by
  obtain ⟨-, -, -, -, -, -, ⟨e0, e1⟩, -⟩ := idx_in t
  funext j
  show V c main_arg9 (((cfg2.win 6).blk t).view.emb j) = V c main_arg9 j
  refine congrArg _ (funext fun a => Fin.ext ?_)
  match a with
  | ⟨0, _⟩ => show win2_6.index t (0 : Fin 2) * 64 + 1 * (j 0).val = (j 0).val; omega
  | ⟨1, _⟩ => show win2_6.index t (1 : Fin 2) * 128 + 1 * (j 1).val = (j 1).val; omega

theorem blkBd2_eq (c : Dev nD) (t : Fin cfg2.N) : blkBd2 V c t = arrBd2 V c := by
  obtain ⟨-, -, -, -, -, -, -, ⟨e0, e1⟩, -⟩ := idx_in t
  funext j
  show V c main_v10 (((cfg2.win 7).blk t).view.emb j) = V c main_v10 j
  refine congrArg _ (funext fun a => Fin.ext ?_)
  match a with
  | ⟨0, _⟩ => show win2_7.index t (0 : Fin 2) * 1 + 1 * (j 0).val = (j 0).val; omega
  | ⟨1, _⟩ => show win2_7.index t (1 : Fin 2) * 128 + 1 * (j 1).val = (j 1).val; omega

theorem blkWd3_eq (c : Dev nD) (t : Fin cfg2.N) : blkWd3 V c t = arrWd3 V c := by
  obtain ⟨-, -, -, -, -, -, -, -, ⟨e0, e1⟩, -⟩ := idx_in t
  funext j
  show V c main_arg11 (((cfg2.win 8).blk t).view.emb j) = V c main_arg11 j
  refine congrArg _ (funext fun a => Fin.ext ?_)
  match a with
  | ⟨0, _⟩ => show win2_8.index t (0 : Fin 2) * 128 + 1 * (j 0).val = (j 0).val; omega
  | ⟨1, _⟩ => show win2_8.index t (1 : Fin 2) * 256 + 1 * (j 1).val = (j 1).val; omega

theorem blkBd3_eq (c : Dev nD) (t : Fin cfg2.N) : blkBd3 V c t = arrBd3 V c := by
  obtain ⟨-, -, -, -, -, -, -, -, -, ⟨e0, e1⟩, -⟩ := idx_in t
  funext j
  show V c main_v11 (((cfg2.win 9).blk t).view.emb j) = V c main_v11 j
  refine congrArg _ (funext fun a => Fin.ext ?_)
  match a with
  | ⟨0, _⟩ => show win2_9.index t (0 : Fin 2) * 1 + 1 * (j 0).val = (j 0).val; omega
  | ⟨1, _⟩ => show win2_9.index t (1 : Fin 2) * 256 + 1 * (j 1).val = (j 1).val; omega

theorem blkWx_eq (c : Dev nD) (t : Fin cfg2.N) : blkWx V c t = arrWx V c := by
  obtain ⟨-, -, -, -, -, -, -, -, -, -, ⟨e0, e1⟩, -⟩ := idx_in t
  funext j
  show V c main_arg13 (((cfg2.win 10).blk t).view.emb j) = V c main_arg13 j
  refine congrArg _ (funext fun a => Fin.ext ?_)
  match a with
  | ⟨0, _⟩ => show win2_10.index t (0 : Fin 2) * 256 + 1 * (j 0).val = (j 0).val; omega
  | ⟨1, _⟩ => show win2_10.index t (1 : Fin 2) * 128 + 1 * (j 1).val = (j 1).val; omega

theorem blkBx_eq (c : Dev nD) (t : Fin cfg2.N) : blkBx V c t = arrBx V c := by
  obtain ⟨-, -, -, -, -, -, -, -, -, -, -, ⟨e0, e1⟩⟩ := idx_in t
  funext j
  show V c main_v12 (((cfg2.win 11).blk t).view.emb j) = V c main_v12 j
  refine congrArg _ (funext fun a => Fin.ext ?_)
  match a with
  | ⟨0, _⟩ => show win2_11.index t (0 : Fin 2) * 1 + 1 * (j 0).val = (j 0).val; omega
  | ⟨1, _⟩ => show win2_11.index t (1 : Fin 2) * 128 + 1 * (j 1).val = (j 1).val; omega

/-! ## The latent output -/

/-- What the body leaves in the latent output's buffer at point t. -/
theorem flushedZ_stored (c : Dev nD) (t : Fin cfg2.N) :
    (dat2 V c).flushed 12 t = k2_pay2 (F := Ideal) (blkA V c t) (blkS V c t) (blkWz V c t) (blkBz V c t) := by
  show (cfg2.win 12).cut (grid2.coords t) ((dat2 V c).after 12 t) = _
  rw [after2_12]
  unfold out2_12
  rw [View.canon_unit_zero hz]
  simp only [View.ld_unit_zero (S := S400x10000) hz, View.ld_unit_zero (S := S10000x64) hz, View.ld_unit_zero (S := S64x32) hz,
    View.ld_unit_zero (S := S1x32) hz]
  rfl

/-- The stored latent rows are rows 400t … of the latent rows of all of A. -/
theorem storedZ_rows (c : Dev nD) (t : Fin cfg2.N) (ht : t.val < 25) :
    cur (k2_pay2 (F := Ideal) (blkA V c t) (blkS V c t) (blkWz V c t) (blkBz V c t)) = rowsAt (rowOf ⟨t.val, ht⟩) (zMat V c) := by
  refine (latent_stored (blkA V c t) (blkS V c t) (blkWz V c t) (blkBz V c t)).trans ?_
  rw [blkA_cur V c t ht, blkS_eq V c t, blkWz_eq V c t, blkBz_eq V c t]
  rfl

theorem readZ_rows (c : Dev nD) (t : Fin cfg2.N) (ht : t.val < 25) (G : Vec Ideal S10000x32 .f32) :
    cur (((cfg2.win 12).blk t).view.read (Elt Ideal) G : Vec Ideal S400x32 .f32) = rowsAt (rowOf ⟨t.val, ht⟩) (cur G) := by
  obtain ⟨e0, e1, -⟩ := idx_out t
  funext p q
  show G (((cfg2.win 12).blk t).view.emb (ix2 p q)) = G (ix2 (rowOf ⟨t.val, ht⟩ p) q)
  refine congrArg _ (funext fun a => Fin.ext ?_)
  match a with
  | ⟨0, _⟩ => show win2_12.index t (0 : Fin 2) * 400 + 1 * p.val = t.val * 400 + p.val; omega
  | ⟨1, _⟩ => show win2_12.index t (1 : Fin 2) * 32 + 1 * q.val = q.val; omega

/-- What point t writes back to the latent output is block t of the latent output array. -/
theorem flushedZ_eq (c : Dev nD) (t : Fin cfg2.N) :
    (dat2 V c).flushed 12 t = ((cfg2.win 12).blk t).view.read (Elt Ideal) (outZ V c) := by
  have ht : t.val < 25 := (idx_out t).2.2.2.2
  rw [flushedZ_stored V c t]
  refine cur_injective (n := 400) (m := 32) ?_
  rw [storedZ_rows V c t ht, readZ_rows c t ht (outZ V c)]
  rfl

theorem memZ_blk (t : Fin cfg2.N) (i : S10000x32.Idx) :
    i ∈ ((cfg2.win 12).blk t).view.set ↔ ∀ a : Fin 2, win2_12.index t a * S400x32.size a ≤ (i a).val ∧ (i a).val < win2_12.index t a * S400x32.size a + S400x32.size a := by
  show i ∈ ((View.whole main_v13_0).slice (win2_12.rect t)).set ↔ _
  rw [View.set_slice_whole, Rect.mem_set_unit]
  exact Iff.rfl

theorem idxZ_onto : ∀ (r : Fin 25), ∃ t : Fin cfg2.N, win2_12.index t = ![r.val, 0] :=
  (by decide +kernel : ∀ (r : Fin 25), ∃ t : Fin grid2.N, win2_12.index t = ![r.val, 0])

theorem coverZ (i : S10000x32.Idx) : ∃ t : Fin cfg2.N, (cfg2.win 12).flush t = true ∧ i ∈ ((cfg2.win 12).blk t).view.set := by
  have hi0 : (i 0).val < 10000 := (i 0).isLt
  have hi1 : (i 1).val < 32 := (i 1).isLt
  obtain ⟨t, ht⟩ := idxZ_onto ⟨(i 0).val / 400, by omega⟩
  have q0 : win2_12.index t (0 : Fin 2) = (i 0).val / 400 := congrFun ht 0
  have q1 : win2_12.index t (1 : Fin 2) = 0 := congrFun ht 1
  refine ⟨t, flush2_12 t, ?_⟩
  rw [memZ_blk]
  intro a
  match a with
  | ⟨0, _⟩ => show win2_12.index t (0 : Fin 2) * 400 ≤ (i 0).val ∧ (i 0).val < win2_12.index t (0 : Fin 2) * 400 + 400; omega
  | ⟨1, _⟩ => show win2_12.index t (1 : Fin 2) * 32 ≤ (i 1).val ∧ (i 1).val < win2_12.index t (1 : Fin 2) * 32 + 32; omega

/-- After the pass the latent output holds relu (A·S)·Wz + bz of the arrays it found. -/
theorem finalZ (c : Dev nD) : (dat2 V c).arrAt 12 cfg2.N = outZ V c :=
  (dat2 V c).arrAt_eq_of_cover 12 (outZ V c) (fun t _ => flushedZ_eq V c t) (coverZ)

/-! ## The reconstruction output -/

/-- What the body leaves in the reconstruction output's buffer at point t. -/
theorem flushedX_stored (c : Dev nD) (t : Fin cfg2.N) :
    (dat2 V c).flushed 13 t = k2_pay1 (F := Ideal) (k2_pay3 (F := Ideal) (blkA V c t) (blkS V c t) (blkWz V c t) (blkBz V c t)
      (blkWd1 V c t) (blkBd1 V c t) (blkWd2 V c t) (blkBd2 V c t)) (blkWd3 V c t) (blkBd3 V c t) (blkWx V c t) (blkBx V c t) := by
  show (cfg2.win 13).cut (grid2.coords t) ((dat2 V c).after 13 t) = _
  rw [after2_13]
  unfold out2_13
  rw [View.canon_unit_zero hz]
  simp only [View.ld_unit_zero (S := S400x10000) hz, View.ld_unit_zero (S := S10000x64) hz, View.ld_unit_zero (S := S64x32) hz,
    View.ld_unit_zero (S := S1x32) hz, View.ld_unit_zero (S := S32x64) hz, View.ld_unit_zero (S := S1x64) hz,
    View.ld_unit_zero (S := S64x128) hz, View.ld_unit_zero (S := S1x128) hz, View.ld_unit_zero (S := S128x256) hz,
    View.ld_unit_zero (S := S1x256) hz, View.ld_unit_zero (S := S256x128) hz]
  rfl

/-- The stored reconstruction rows are rows 400t … of the decoder of the latent rows of all of A. -/
theorem storedX_rows (c : Dev nD) (t : Fin cfg2.N) (ht : t.val < 25) :
    cur (k2_pay1 (F := Ideal) (k2_pay3 (F := Ideal) (blkA V c t) (blkS V c t) (blkWz V c t) (blkBz V c t)
      (blkWd1 V c t) (blkBd1 V c t) (blkWd2 V c t) (blkBd2 V c t)) (blkWd3 V c t) (blkBd3 V c t) (blkWx V c t) (blkBx V c t))
      = rowsAt (rowOf ⟨t.val, ht⟩) (cur (outX V c)) := by
  refine (decode_stored (blkA V c t) (blkS V c t) (blkWz V c t) (blkBz V c t) (blkWd1 V c t) (blkBd1 V c t) (blkWd2 V c t) (blkBd2 V c t)
    (blkWd3 V c t) (blkBd3 V c t) (blkWx V c t) (blkBx V c t)).trans ?_
  rw [blkA_cur V c t ht, blkS_eq V c t, blkWz_eq V c t, blkBz_eq V c t, blkWd1_eq V c t, blkBd1_eq V c t, blkWd2_eq V c t, blkBd2_eq V c t,
    blkWd3_eq V c t, blkBd3_eq V c t, blkWx_eq V c t, blkBx_eq V c t]
  rfl

theorem readX_rows (c : Dev nD) (t : Fin cfg2.N) (ht : t.val < 25) (G : Vec Ideal S10000x128 .f32) :
    cur (((cfg2.win 13).blk t).view.read (Elt Ideal) G : Vec Ideal S400x128 .f32) = rowsAt (rowOf ⟨t.val, ht⟩) (cur G) := by
  obtain ⟨-, -, e0, e1, -⟩ := idx_out t
  funext p q
  show G (((cfg2.win 13).blk t).view.emb (ix2 p q)) = G (ix2 (rowOf ⟨t.val, ht⟩ p) q)
  refine congrArg _ (funext fun a => Fin.ext ?_)
  match a with
  | ⟨0, _⟩ => show win2_13.index t (0 : Fin 2) * 400 + 1 * p.val = t.val * 400 + p.val; omega
  | ⟨1, _⟩ => show win2_13.index t (1 : Fin 2) * 128 + 1 * q.val = q.val; omega

/-- What point t writes back to the reconstruction output is block t of the reconstruction output array. -/
theorem flushedX_eq (c : Dev nD) (t : Fin cfg2.N) :
    (dat2 V c).flushed 13 t = ((cfg2.win 13).blk t).view.read (Elt Ideal) (outX V c) := by
  have ht : t.val < 25 := (idx_out t).2.2.2.2
  rw [flushedX_stored V c t]
  refine cur_injective (n := 400) (m := 128) ?_
  rw [storedX_rows V c t ht, readX_rows c t ht (outX V c)]

theorem memX_blk (t : Fin cfg2.N) (i : S10000x128.Idx) :
    i ∈ ((cfg2.win 13).blk t).view.set ↔ ∀ a : Fin 2, win2_13.index t a * S400x128.size a ≤ (i a).val ∧ (i a).val < win2_13.index t a * S400x128.size a + S400x128.size a := by
  show i ∈ ((View.whole main_v13_1).slice (win2_13.rect t)).set ↔ _
  rw [View.set_slice_whole, Rect.mem_set_unit]
  exact Iff.rfl

theorem idxX_onto : ∀ (r : Fin 25), ∃ t : Fin cfg2.N, win2_13.index t = ![r.val, 0] :=
  (by decide +kernel : ∀ (r : Fin 25), ∃ t : Fin grid2.N, win2_13.index t = ![r.val, 0])

theorem coverX (i : S10000x128.Idx) : ∃ t : Fin cfg2.N, (cfg2.win 13).flush t = true ∧ i ∈ ((cfg2.win 13).blk t).view.set := by
  have hi0 : (i 0).val < 10000 := (i 0).isLt
  have hi1 : (i 1).val < 128 := (i 1).isLt
  obtain ⟨t, ht⟩ := idxX_onto ⟨(i 0).val / 400, by omega⟩
  have q0 : win2_13.index t (0 : Fin 2) = (i 0).val / 400 := congrFun ht 0
  have q1 : win2_13.index t (1 : Fin 2) = 0 := congrFun ht 1
  refine ⟨t, flush2_13 t, ?_⟩
  rw [memX_blk]
  intro a
  match a with
  | ⟨0, _⟩ => show win2_13.index t (0 : Fin 2) * 400 ≤ (i 0).val ∧ (i 0).val < win2_13.index t (0 : Fin 2) * 400 + 400; omega
  | ⟨1, _⟩ => show win2_13.index t (1 : Fin 2) * 128 ≤ (i 1).val ∧ (i 1).val < win2_13.index t (1 : Fin 2) * 128 + 128; omega

/-- After the pass the reconstruction output holds the decoder of the latent rows. -/
theorem finalX (c : Dev nD) : (dat2 V c).arrAt 13 cfg2.N = outX V c :=
  (dat2 V c).arrAt_eq_of_cover 13 (outX V c) (fun t _ => flushedX_eq V c t) (coverX)

end Cert.KernelIdeal.Region2

end
-- ==== Proof.KValue.lean ====
/-
  The kernel's two result arrays as matrix expressions of the launch arrays.

  Pass one finds A, W₁, W₂ as launched and X through a format change (the identity on extended reals) and leaves
  S₂ = relu ((A·X)·W₁)·W₂; pass two finds A, W₃ as launched and S₂ where pass one left it, and leaves
  S₃ = relu (A·S₂)·W₃; the five bias vectors are reshaped to one-row arrays; pass three finds A and the weights as
  launched, S₃ where pass two left it and the one-row biases, and leaves z = relu (A·S₃)·Wz + bz and the decoder
  of z. Nothing else writes these arrays between the passes.
-/
import proofs.«163469_g27393301414357_cont_9to1_1617_3_alg».proof.Proof.KRun
import proofs.«163469_g27393301414357_cont_9to1_1617_3_alg».proof.Proof.KRegion0
import proofs.«163469_g27393301414357_cont_9to1_1617_3_alg».proof.Proof.KRegion1
import proofs.«163469_g27393301414357_cont_9to1_1617_3_alg».proof.Proof.KRegion2
import Idealize.ShloMosaic.Lib.StableHlo.Run

set_option maxRecDepth 16384

noncomputable section

namespace Cert.KernelIdeal.Result

open Idealize.ShloMosaic Idealize.ShloMosaic.TcCoe Idealize.SL.Sem Idealize.ShloMosaic.ValueIdx Idealize.ShloMosaic.StableHlo
open Cert.KernelIdeal Cert.KernelIdeal.Gen Cert.KernelIdeal.Named Cert.Mat Cert.Gae

variable (m : (ℓ : Loc nD τ sig) → Buf (Elt Ideal) ℓ) (ρ : Dev nD → PrngReg)

/-! ## The launch arrays, at their literal types -/

abbrev inX (c : Dev nD) : Vec Ideal S10000x128 .f32 := m ((c : Thread nD τ).loc main_arg0)
abbrev inA (c : Dev nD) : Vec Ideal S10000x10000 .f32 := m ((c : Thread nD τ).loc main_arg1)
abbrev inW1 (c : Dev nD) : Vec Ideal S128x256 .f32 := m ((c : Thread nD τ).loc main_arg2)
abbrev inW2 (c : Dev nD) : Vec Ideal S256x128 .f32 := m ((c : Thread nD τ).loc main_arg3)
abbrev inW3 (c : Dev nD) : Vec Ideal S128x64 .f32 := m ((c : Thread nD τ).loc main_arg4)
abbrev inWz (c : Dev nD) : Vec Ideal S64x32 .f32 := m ((c : Thread nD τ).loc main_arg5)
abbrev inBz (c : Dev nD) : Vec Ideal S32 .f32 := m ((c : Thread nD τ).loc main_arg6)
abbrev inWd1 (c : Dev nD) : Vec Ideal S32x64 .f32 := m ((c : Thread nD τ).loc main_arg7)
abbrev inBd1 (c : Dev nD) : Vec Ideal S64 .f32 := m ((c : Thread nD τ).loc main_arg8)
abbrev inWd2 (c : Dev nD) : Vec Ideal S64x128 .f32 := m ((c : Thread nD τ).loc main_arg9)
abbrev inBd2 (c : Dev nD) : Vec Ideal S128 .f32 := m ((c : Thread nD τ).loc main_arg10)
abbrev inWd3 (c : Dev nD) : Vec Ideal S128x256 .f32 := m ((c : Thread nD τ).loc main_arg11)
abbrev inBd3 (c : Dev nD) : Vec Ideal S256 .f32 := m ((c : Thread nD τ).loc main_arg12)
abbrev inWx (c : Dev nD) : Vec Ideal S256x128 .f32 := m ((c : Thread nD τ).loc main_arg13)
abbrev inBx (c : Dev nD) : Vec Ideal S128 .f32 := m ((c : Thread nD τ).loc main_arg14)

/-- S₂ = relu ((A·X)·W₁)·W₂. -/
def s2 (c : Dev nD) : Mat 10000 128 := pass1K (cur (inA m c)) (cur (inX m c)) (cur (inW1 m c)) (cur (inW2 m c))
/-- S₃ = relu (A·S₂)·W₃. -/
def s3 (c : Dev nD) : Mat 10000 64 := pass2 (cur (inA m c)) (s2 m c) (cur (inW3 m c))
/-- z = relu (A·S₃)·Wz + bz. -/
def zK (c : Dev nD) : Mat 10000 32 := latent (cur (inA m c)) (s3 m c) (cur (inWz m c)) (curv (inBz m c))
/-- The decoder of z. -/
def xK (c : Dev nD) : Mat 10000 128 :=
  decode (zK m c) (cur (inWd1 m c)) (curv (inBd1 m c)) (cur (inWd2 m c)) (curv (inBd2 m c)) (cur (inWd3 m c)) (curv (inBd3 m c))
    (cur (inWx m c)) (curv (inBx m c))

/-! ## Pass one -/

theorem V1_A (c : Dev nD) : Region0.arrA (V1 m ρ) c = inA m c := W1_main_arg1 m ρ c
theorem V1_W1 (c : Dev nD) : Region0.arrW1 (V1 m ρ) c = inW1 m c := W1_main_arg2 m ρ c
theorem V1_W2 (c : Dev nD) : Region0.arrW2 (V1 m ρ) c = inW2 m c := W1_main_arg3 m ρ c
/-- Pass one finds X through the format change. -/
theorem V1_X (c : Dev nD) : Region0.arrX (V1 m ρ) c = (inX m c : S10000x128.Idx → EReal) := by
  show StableHlo.after hostOps0 (W0 m ρ c) (Proc.devRef .tc main_v0) = _
  after_results
  rfl

theorem out0_eq (c : Dev nD) : Region0.out (V1 m ρ) c = uncur (s2 m c) := by
  unfold Region0.out s2
  rw [V1_A m ρ c, V1_X m ρ c, V1_W1 m ρ c, V1_W2 m ρ c]

/-! ## Pass two -/

theorem V2_A (c : Dev nD) : Region1.arrA (V2 m ρ) c = inA m c := W2_main_arg1 m ρ c
theorem V2_W3 (c : Dev nD) : Region1.arrW3 (V2 m ρ) c = inW3 m c := W2_main_arg4 m ρ c
/-- Pass two finds S₂ where pass one left it. -/
theorem V2_S (c : Dev nD) : Region1.arrS (V2 m ρ) c = uncur (s2 m c) :=
  (W2_arr m ρ c 4).trans ((Region0.final (V1 m ρ) c).trans (out0_eq m ρ c))

theorem out1_eq (c : Dev nD) : Region1.out (V2 m ρ) c = uncur (s3 m c) := by
  unfold Region1.out s3
  rw [V2_A m ρ c, V2_S m ρ c, V2_W3 m ρ c]
  rfl

/-! ## Pass three -/

theorem V4_A (c : Dev nD) : Region2.arrA (V4 m ρ) c = inA m c := W4_main_arg1 m ρ c
theorem V4_Wz (c : Dev nD) : Region2.arrWz (V4 m ρ) c = inWz m c := W4_main_arg5 m ρ c
theorem V4_Wd1 (c : Dev nD) : Region2.arrWd1 (V4 m ρ) c = inWd1 m c := W4_main_arg7 m ρ c
theorem V4_Wd2 (c : Dev nD) : Region2.arrWd2 (V4 m ρ) c = inWd2 m c := W4_main_arg9 m ρ c
theorem V4_Wd3 (c : Dev nD) : Region2.arrWd3 (V4 m ρ) c = inWd3 m c := W4_main_arg11 m ρ c
theorem V4_Wx (c : Dev nD) : Region2.arrWx (V4 m ρ) c = inWx m c := W4_main_arg13 m ρ c

/-- The reshapes between passes two and three do not write S₃'s array. -/
theorem V4_S (c : Dev nD) : Region2.arrS (V4 m ρ) c = uncur (s3 m c) := by
  have h : StableHlo.after hostOps2 (W3 m ρ c) (Proc.devRef .tc main_v2) = W3 m ρ c (Proc.devRef .tc main_v2) := by
    after_results
  exact h.trans ((W3_arr m ρ c 3).trans ((Region1.final (V2 m ρ) c).trans (out1_eq m ρ c)))

/-- Each bias reaches pass three as the one-row reshape of the launched vector. -/
theorem V4_Bz (c : Dev nD) (j : Fin 32) : Region2.arrBz (V4 m ρ) c (ix2 (0 : Fin 1) j) = curv (inBz m c) j := by
  have h : StableHlo.after hostOps2 (W3 m ρ c) (Proc.devRef .tc main_v8) = shapeCast S1x32 (W3 m ρ c (Proc.devRef .tc main_arg6)) shapeCasts_S32_S1x32 := by
    after_results
    rfl
  show StableHlo.after hostOps2 (W3 m ρ c) (Proc.devRef .tc main_v8) (ix2 (0 : Fin 1) j) = _
  rw [h, W3_main_arg6 m ρ c]
  exact shapeCast_row_apply (φ := .f32) (inBz m c) shapeCasts_S32_S1x32 j

theorem V4_Bd1 (c : Dev nD) (j : Fin 64) : Region2.arrBd1 (V4 m ρ) c (ix2 (0 : Fin 1) j) = curv (inBd1 m c) j := by
  have h : StableHlo.after hostOps2 (W3 m ρ c) (Proc.devRef .tc main_v9) = shapeCast S1x64 (W3 m ρ c (Proc.devRef .tc main_arg8)) shapeCasts_S64_S1x64 := by
    after_results
    rfl
  show StableHlo.after hostOps2 (W3 m ρ c) (Proc.devRef .tc main_v9) (ix2 (0 : Fin 1) j) = _
  rw [h, W3_main_arg8 m ρ c]
  exact shapeCast_row_apply (φ := .f32) (inBd1 m c) shapeCasts_S64_S1x64 j

theorem V4_Bd2 (c : Dev nD) (j : Fin 128) : Region2.arrBd2 (V4 m ρ) c (ix2 (0 : Fin 1) j) = curv (inBd2 m c) j := by
  have h : StableHlo.after hostOps2 (W3 m ρ c) (Proc.devRef .tc main_v10) = shapeCast S1x128 (W3 m ρ c (Proc.devRef .tc main_arg10)) shapeCasts_S128_S1x128 := by
    after_results
    rfl
  show StableHlo.after hostOps2 (W3 m ρ c) (Proc.devRef .tc main_v10) (ix2 (0 : Fin 1) j) = _
  rw [h, W3_main_arg10 m ρ c]
  exact shapeCast_row_apply (φ := .f32) (inBd2 m c) shapeCasts_S128_S1x128 j

theorem V4_Bd3 (c : Dev nD) (j : Fin 256) : Region2.arrBd3 (V4 m ρ) c (ix2 (0 : Fin 1) j) = curv (inBd3 m c) j := by
  have h : StableHlo.after hostOps2 (W3 m ρ c) (Proc.devRef .tc main_v11) = shapeCast S1x256 (W3 m ρ c (Proc.devRef .tc main_arg12)) shapeCasts_S256_S1x256 := by
    after_results
    rfl
  show StableHlo.after hostOps2 (W3 m ρ c) (Proc.devRef .tc main_v11) (ix2 (0 : Fin 1) j) = _
  rw [h, W3_main_arg12 m ρ c]
  exact shapeCast_row_apply (φ := .f32) (inBd3 m c) shapeCasts_S256_S1x256 j

theorem V4_Bx (c : Dev nD) (j : Fin 128) : Region2.arrBx (V4 m ρ) c (ix2 (0 : Fin 1) j) = curv (inBx m c) j := by
  have h : StableHlo.after hostOps2 (W3 m ρ c) (Proc.devRef .tc main_v12) = shapeCast S1x128 (W3 m ρ c (Proc.devRef .tc main_arg14)) shapeCasts_S128_S1x128 := by
    after_results
    rfl
  show StableHlo.after hostOps2 (W3 m ρ c) (Proc.devRef .tc main_v12) (ix2 (0 : Fin 1) j) = _
  rw [h, W3_main_arg14 m ρ c]
  exact shapeCast_row_apply (φ := .f32) (inBx m c) shapeCasts_S128_S1x128 j

theorem zMat_eq (c : Dev nD) : Region2.zMat (V4 m ρ) c = zK m c := by
  unfold Region2.zMat zK
  rw [V4_A m ρ c, V4_S m ρ c, V4_Wz m ρ c, funext (V4_Bz m ρ c)]
  rfl

theorem outZ_eq (c : Dev nD) : Region2.outZ (V4 m ρ) c = uncur (zK m c) := by
  unfold Region2.outZ
  rw [zMat_eq m ρ c]

theorem outX_eq (c : Dev nD) : Region2.outX (V4 m ρ) c = uncur (xK m c) := by
  unfold Region2.outX xK
  rw [zMat_eq m ρ c, V4_Wd1 m ρ c, V4_Wd2 m ρ c, V4_Wd3 m ρ c, V4_Wx m ρ c, funext (V4_Bd1 m ρ c), funext (V4_Bd2 m ρ c),
    funext (V4_Bd3 m ρ c), funext (V4_Bx m ρ c)]

/-! ## The run, with the results named -/

/-- Every weakly fair execution of the kernel's program terminates, nothing faulting, with the reconstruction at the
    decoder of z, the latent output at z, and the argument arrays as launched. -/
theorem run : θ_run defs (onTc (τ := τ) (main (F := Ideal))) ⟨m, fun _ => 0, ρ⟩ (fun r => ∀ c : Dev nD,
      r.2.mem ((c.tc : Thread nD τ).loc main_v13_1) = (uncur (xK m c) : Vec Ideal S10000x128 .f32)
      ∧ r.2.mem ((c.tc : Thread nD τ).loc main_v13_0) = (uncur (zK m c) : Vec Ideal S10000x32 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c).1.trans ((W5_arr m ρ c 13).trans ((Region2.finalX (V4 m ρ) c).trans (outX_eq m ρ c))),
     (h c).2.1.trans ((W5_arr m ρ c 12).trans ((Region2.finalZ (V4 m ρ) c).trans (outZ_eq m ρ c))),
     (h c).2.2⟩)
    (run_named m ρ)

end Cert.KernelIdeal.Result

end
-- ==== Proof.RefValue.lean ====
/-
  The reference's two results, read by coordinates, as matrix expressions.

  The reference computes its results in thirty-two stages, each one operation on the stage before: a product of
  two rank-2 arrays, an entrywise maximum with the zero array, or the sum with a vector laid along every row.
  Each product's dimension record is the plain one, rows of the left operand against columns of the right, so
  the stage is the matrix product of its operands' coordinates; a maximum with zero is `relu`; a sum with a
  broadcast vector is `addRow`. Going through the stages in order, each read from the one before, gives the
  latent code as `latent` of two passes and the reconstruction as `decode` of the latent code.
-/
import proofs.«163469_g27393301414357_cont_9to1_1617_3_alg».proof.Proof.Gen.ReferenceIdeal.Read
import proofs.«163469_g27393301414357_cont_9to1_1617_3_alg».proof.Proof.Gae

noncomputable section

namespace Cert.ReferenceIdeal.RefValue
open Idealize.ShloMosaic Cert.ReferenceIdeal Cert.Mat Cert.Gae

/-! ## Every product's dimension record is the plain one -/

theorem dot_S10000x128_S128x256_S10000x256_1_0_0_1_n_n_eq : dot_S10000x128_S128x256_S10000x256_1_0_0_1_n_n = DotDims.plain 10000 128 256 := rfl
theorem dot_S10000x10000_S10000x256_S10000x256_1_0_0_1_n_n_eq : dot_S10000x10000_S10000x256_S10000x256_1_0_0_1_n_n = DotDims.plain 10000 10000 256 := rfl
theorem dot_S10000x256_S256x128_S10000x128_1_0_0_1_n_n_eq : dot_S10000x256_S256x128_S10000x128_1_0_0_1_n_n = DotDims.plain 10000 256 128 := rfl
theorem dot_S10000x10000_S10000x128_S10000x128_1_0_0_1_n_n_eq : dot_S10000x10000_S10000x128_S10000x128_1_0_0_1_n_n = DotDims.plain 10000 10000 128 := rfl
theorem dot_S10000x128_S128x64_S10000x64_1_0_0_1_n_n_eq : dot_S10000x128_S128x64_S10000x64_1_0_0_1_n_n = DotDims.plain 10000 128 64 := rfl
theorem dot_S10000x10000_S10000x64_S10000x64_1_0_0_1_n_n_eq : dot_S10000x10000_S10000x64_S10000x64_1_0_0_1_n_n = DotDims.plain 10000 10000 64 := rfl
theorem dot_S10000x64_S64x32_S10000x32_1_0_0_1_n_n_eq : dot_S10000x64_S64x32_S10000x32_1_0_0_1_n_n = DotDims.plain 10000 64 32 := rfl
theorem dot_S10000x32_S32x64_S10000x64_1_0_0_1_n_n_eq : dot_S10000x32_S32x64_S10000x64_1_0_0_1_n_n = DotDims.plain 10000 32 64 := rfl
theorem dot_S10000x64_S64x128_S10000x128_1_0_0_1_n_n_eq : dot_S10000x64_S64x128_S10000x128_1_0_0_1_n_n = DotDims.plain 10000 64 128 := rfl

/-! ## The encoder: three graph layers -/

/-- X·W₁. -/
theorem v0_cur (x0 : FVec Ideal S10000x128 .f32) (x2 : FVec Ideal S128x256 .f32) :
    cur (Read.val_main_v0 (F := Ideal) x0 x2) = mm (cur x0) (cur x2) := by
  unfold Read.val_main_v0
  rw [dot_S10000x128_S128x256_S10000x256_1_0_0_1_n_n_eq]
  exact cur_dotGeneral none x0 x2

/-- A·(X·W₁). -/
theorem v1_cur (x0 : FVec Ideal S10000x128 .f32) (x1 : FVec Ideal S10000x10000 .f32) (x2 : FVec Ideal S128x256 .f32) :
    cur (Read.val_main_v1 (F := Ideal) x0 x1 x2) = mm (cur x1) (mm (cur x0) (cur x2)) := by
  unfold Read.val_main_v1
  rw [dot_S10000x10000_S10000x256_S10000x256_1_0_0_1_n_n_eq]
  refine (cur_dotGeneral none x1 _).trans ?_
  rw [v0_cur]

/-- relu (A·(X·W₁)). -/
theorem v2_cur (x0 : FVec Ideal S10000x128 .f32) (x1 : FVec Ideal S10000x10000 .f32) (x2 : FVec Ideal S128x256 .f32) :
    cur (Read.val_main_v2 (F := Ideal) x0 x1 x2) = relu (mm (cur x1) (mm (cur x0) (cur x2))) := by
  unfold Read.val_main_v2 Read.val_main_call0_v0 Read.val_main_call0_cst
  refine (cur_maximumf_bcast _ _).trans ?_
  rw [v1_cur]

/-- The first layer's result against W₂. -/
theorem v3_cur (x0 : FVec Ideal S10000x128 .f32) (x1 : FVec Ideal S10000x10000 .f32) (x2 : FVec Ideal S128x256 .f32) (x3 : FVec Ideal S256x128 .f32) :
    cur (Read.val_main_v3 (F := Ideal) x0 x1 x2 x3) = pass1R (cur x1) (cur x0) (cur x2) (cur x3) := by
  unfold Read.val_main_v3 pass1R
  rw [dot_S10000x256_S256x128_S10000x128_1_0_0_1_n_n_eq]
  refine (cur_dotGeneral none _ x3).trans ?_
  rw [v2_cur]

/-- A·S₂. -/
theorem v4_cur (x0 : FVec Ideal S10000x128 .f32) (x1 : FVec Ideal S10000x10000 .f32) (x2 : FVec Ideal S128x256 .f32) (x3 : FVec Ideal S256x128 .f32) :
    cur (Read.val_main_v4 (F := Ideal) x0 x1 x2 x3) = mm (cur x1) (pass1R (cur x1) (cur x0) (cur x2) (cur x3)) := by
  unfold Read.val_main_v4
  rw [dot_S10000x10000_S10000x128_S10000x128_1_0_0_1_n_n_eq]
  refine (cur_dotGeneral none x1 _).trans ?_
  rw [v3_cur]

/-- relu (A·S₂). -/
theorem v5_cur (x0 : FVec Ideal S10000x128 .f32) (x1 : FVec Ideal S10000x10000 .f32) (x2 : FVec Ideal S128x256 .f32) (x3 : FVec Ideal S256x128 .f32) :
    cur (Read.val_main_v5 (F := Ideal) x0 x1 x2 x3) = relu (mm (cur x1) (pass1R (cur x1) (cur x0) (cur x2) (cur x3))) := by
  unfold Read.val_main_v5 Read.val_main_call1_v0 Read.val_main_call1_cst
  refine (cur_maximumf_bcast _ _).trans ?_
  rw [v4_cur]

/-- The second layer's result against W₃. -/
theorem v6_cur (x0 : FVec Ideal S10000x128 .f32) (x1 : FVec Ideal S10000x10000 .f32) (x2 : FVec Ideal S128x256 .f32) (x3 : FVec Ideal S256x128 .f32) (x4 : FVec Ideal S128x64 .f32) :
    cur (Read.val_main_v6 (F := Ideal) x0 x1 x2 x3 x4) = pass2 (cur x1) (pass1R (cur x1) (cur x0) (cur x2) (cur x3)) (cur x4) := by
  unfold Read.val_main_v6 pass2
  rw [dot_S10000x128_S128x64_S10000x64_1_0_0_1_n_n_eq]
  refine (cur_dotGeneral none _ x4).trans ?_
  rw [v5_cur]

/-- A·S₃. -/
theorem v7_cur (x0 : FVec Ideal S10000x128 .f32) (x1 : FVec Ideal S10000x10000 .f32) (x2 : FVec Ideal S128x256 .f32) (x3 : FVec Ideal S256x128 .f32) (x4 : FVec Ideal S128x64 .f32) :
    cur (Read.val_main_v7 (F := Ideal) x0 x1 x2 x3 x4) = mm (cur x1) (pass2 (cur x1) (pass1R (cur x1) (cur x0) (cur x2) (cur x3)) (cur x4)) := by
  unfold Read.val_main_v7
  rw [dot_S10000x10000_S10000x64_S10000x64_1_0_0_1_n_n_eq]
  refine (cur_dotGeneral none x1 _).trans ?_
  rw [v6_cur]

/-- relu (A·S₃). -/
theorem v8_cur (x0 : FVec Ideal S10000x128 .f32) (x1 : FVec Ideal S10000x10000 .f32) (x2 : FVec Ideal S128x256 .f32) (x3 : FVec Ideal S256x128 .f32) (x4 : FVec Ideal S128x64 .f32) :
    cur (Read.val_main_v8 (F := Ideal) x0 x1 x2 x3 x4) = relu (mm (cur x1) (pass2 (cur x1) (pass1R (cur x1) (cur x0) (cur x2) (cur x3)) (cur x4))) := by
  unfold Read.val_main_v8 Read.val_main_call2_v0 Read.val_main_call2_cst
  refine (cur_maximumf_bcast _ _).trans ?_
  rw [v7_cur]

/-- The third layer's result against Wz. -/
theorem v9_cur (x0 : FVec Ideal S10000x128 .f32) (x1 : FVec Ideal S10000x10000 .f32) (x2 : FVec Ideal S128x256 .f32) (x3 : FVec Ideal S256x128 .f32) (x4 : FVec Ideal S128x64 .f32) (x5 : FVec Ideal S64x32 .f32) :
    cur (Read.val_main_v9 (F := Ideal) x0 x1 x2 x3 x4 x5)
      = mm (relu (mm (cur x1) (pass2 (cur x1) (pass1R (cur x1) (cur x0) (cur x2) (cur x3)) (cur x4)))) (cur x5) := by
  unfold Read.val_main_v9
  rw [dot_S10000x64_S64x32_S10000x32_1_0_0_1_n_n_eq]
  refine (cur_dotGeneral none _ x5).trans ?_
  rw [v8_cur]

/-- The latent code as the reference computes it. -/
theorem z_cur (x0 : FVec Ideal S10000x128 .f32) (x1 : FVec Ideal S10000x10000 .f32) (x2 : FVec Ideal S128x256 .f32) (x3 : FVec Ideal S256x128 .f32)
    (x4 : FVec Ideal S128x64 .f32) (x5 : FVec Ideal S64x32 .f32) (x6 : FVec Ideal S32 .f32) :
    cur (Read.val_main_v12 (F := Ideal) x0 x1 x2 x3 x4 x5 x6)
      = latent (cur x1) (pass2 (cur x1) (pass1R (cur x1) (cur x0) (cur x2) (cur x3)) (cur x4)) (cur x5) (curv x6) := by
  unfold Read.val_main_v12 Read.val_main_v11 Read.val_main_v10 latent
  refine (cur_addf_rowVec _ x6 _ _).trans ?_
  rw [v9_cur]

/-! ## The decoder: three dense layers with relu, then one without -/

/-- z·Wd₁. -/
theorem v13_cur (x0 : FVec Ideal S10000x128 .f32) (x1 : FVec Ideal S10000x10000 .f32) (x2 : FVec Ideal S128x256 .f32) (x3 : FVec Ideal S256x128 .f32) (x4 : FVec Ideal S128x64 .f32) (x5 : FVec Ideal S64x32 .f32) (x6 : FVec Ideal S32 .f32) (x7 : FVec Ideal S32x64 .f32) :
    cur (Read.val_main_v13 (F := Ideal) x0 x1 x2 x3 x4 x5 x6 x7) = mm (cur (Read.val_main_v12 (F := Ideal) x0 x1 x2 x3 x4 x5 x6)) (cur x7) := by
  unfold Read.val_main_v13
  rw [dot_S10000x32_S32x64_S10000x64_1_0_0_1_n_n_eq]
  exact cur_dotGeneral none _ x7

/-- z·Wd₁, plus bd₁ on every row. -/
theorem v16_cur (x0 : FVec Ideal S10000x128 .f32) (x1 : FVec Ideal S10000x10000 .f32) (x2 : FVec Ideal S128x256 .f32) (x3 : FVec Ideal S256x128 .f32) (x4 : FVec Ideal S128x64 .f32) (x5 : FVec Ideal S64x32 .f32) (x6 : FVec Ideal S32 .f32) (x7 : FVec Ideal S32x64 .f32) (x8 : FVec Ideal S64 .f32) :
    cur (Read.val_main_v16 (F := Ideal) x0 x1 x2 x3 x4 x5 x6 x7 x8) = addRow (mm (cur (Read.val_main_v12 (F := Ideal) x0 x1 x2 x3 x4 x5 x6)) (cur x7)) (curv x8) := by
  unfold Read.val_main_v16 Read.val_main_v15 Read.val_main_v14
  refine (cur_addf_rowVec _ x8 _ _).trans ?_
  rw [v13_cur]

/-- The first dense layer: relu (z·Wd₁ + bd₁). -/
theorem v17_cur (x0 : FVec Ideal S10000x128 .f32) (x1 : FVec Ideal S10000x10000 .f32) (x2 : FVec Ideal S128x256 .f32) (x3 : FVec Ideal S256x128 .f32) (x4 : FVec Ideal S128x64 .f32) (x5 : FVec Ideal S64x32 .f32) (x6 : FVec Ideal S32 .f32) (x7 : FVec Ideal S32x64 .f32) (x8 : FVec Ideal S64 .f32) :
    cur (Read.val_main_v17 (F := Ideal) x0 x1 x2 x3 x4 x5 x6 x7 x8) = dense (cur (Read.val_main_v12 (F := Ideal) x0 x1 x2 x3 x4 x5 x6)) (cur x7) (curv x8) := by
  unfold Read.val_main_v17 Read.val_main_call3_v0 Read.val_main_call3_cst
  refine (cur_maximumf_bcast _ _).trans ?_
  rw [v16_cur]
  rfl

/-- The first dense layer's result against Wd₂. -/
theorem v18_cur (x0 : FVec Ideal S10000x128 .f32) (x1 : FVec Ideal S10000x10000 .f32) (x2 : FVec Ideal S128x256 .f32) (x3 : FVec Ideal S256x128 .f32) (x4 : FVec Ideal S128x64 .f32) (x5 : FVec Ideal S64x32 .f32) (x6 : FVec Ideal S32 .f32) (x7 : FVec Ideal S32x64 .f32) (x8 : FVec Ideal S64 .f32) (x9 : FVec Ideal S64x128 .f32) :
    cur (Read.val_main_v18 (F := Ideal) x0 x1 x2 x3 x4 x5 x6 x7 x8 x9) = mm (dense (cur (Read.val_main_v12 (F := Ideal) x0 x1 x2 x3 x4 x5 x6)) (cur x7) (curv x8)) (cur x9) := by
  unfold Read.val_main_v18
  rw [dot_S10000x64_S64x128_S10000x128_1_0_0_1_n_n_eq]
  refine (cur_dotGeneral none _ x9).trans ?_
  rw [v17_cur]

/-- The first dense layer's result against Wd₂, plus bd₂ on every row. -/
theorem v21_cur (x0 : FVec Ideal S10000x128 .f32) (x1 : FVec Ideal S10000x10000 .f32) (x2 : FVec Ideal S128x256 .f32) (x3 : FVec Ideal S256x128 .f32) (x4 : FVec Ideal S128x64 .f32) (x5 : FVec Ideal S64x32 .f32) (x6 : FVec Ideal S32 .f32) (x7 : FVec Ideal S32x64 .f32) (x8 : FVec Ideal S64 .f32) (x9 : FVec Ideal S64x128 .f32) (x10 : FVec Ideal S128 .f32) :
    cur (Read.val_main_v21 (F := Ideal) x0 x1 x2 x3 x4 x5 x6 x7 x8 x9 x10) = addRow (mm (dense (cur (Read.val_main_v12 (F := Ideal) x0 x1 x2 x3 x4 x5 x6)) (cur x7) (curv x8)) (cur x9)) (curv x10) := by
  unfold Read.val_main_v21 Read.val_main_v20 Read.val_main_v19
  refine (cur_addf_rowVec _ x10 _ _).trans ?_
  rw [v18_cur]

/-- The second dense layer. -/
theorem v22_cur (x0 : FVec Ideal S10000x128 .f32) (x1 : FVec Ideal S10000x10000 .f32) (x2 : FVec Ideal S128x256 .f32) (x3 : FVec Ideal S256x128 .f32) (x4 : FVec Ideal S128x64 .f32) (x5 : FVec Ideal S64x32 .f32) (x6 : FVec Ideal S32 .f32) (x7 : FVec Ideal S32x64 .f32) (x8 : FVec Ideal S64 .f32) (x9 : FVec Ideal S64x128 .f32) (x10 : FVec Ideal S128 .f32) :
    cur (Read.val_main_v22 (F := Ideal) x0 x1 x2 x3 x4 x5 x6 x7 x8 x9 x10) = dense (dense (cur (Read.val_main_v12 (F := Ideal) x0 x1 x2 x3 x4 x5 x6)) (cur x7) (curv x8)) (cur x9) (curv x10) := by
  unfold Read.val_main_v22 Read.val_main_call4_v0 Read.val_main_call4_cst
  refine (cur_maximumf_bcast _ _).trans ?_
  rw [v21_cur]
  rfl

/-- The second dense layer's result against Wd₃. -/
theorem v23_cur (x0 : FVec Ideal S10000x128 .f32) (x1 : FVec Ideal S10000x10000 .f32) (x2 : FVec Ideal S128x256 .f32) (x3 : FVec Ideal S256x128 .f32) (x4 : FVec Ideal S128x64 .f32) (x5 : FVec Ideal S64x32 .f32) (x6 : FVec Ideal S32 .f32) (x7 : FVec Ideal S32x64 .f32) (x8 : FVec Ideal S64 .f32) (x9 : FVec Ideal S64x128 .f32) (x10 : FVec Ideal S128 .f32) (x11 : FVec Ideal S128x256 .f32) :
    cur (Read.val_main_v23 (F := Ideal) x0 x1 x2 x3 x4 x5 x6 x7 x8 x9 x10 x11) = mm (dense (dense (cur (Read.val_main_v12 (F := Ideal) x0 x1 x2 x3 x4 x5 x6)) (cur x7) (curv x8)) (cur x9) (curv x10)) (cur x11) := by
  unfold Read.val_main_v23
  rw [dot_S10000x128_S128x256_S10000x256_1_0_0_1_n_n_eq]
  refine (cur_dotGeneral none _ x11).trans ?_
  rw [v22_cur]

/-- The second dense layer's result against Wd₃, plus bd₃ on every row. -/
theorem v26_cur (x0 : FVec Ideal S10000x128 .f32) (x1 : FVec Ideal S10000x10000 .f32) (x2 : FVec Ideal S128x256 .f32) (x3 : FVec Ideal S256x128 .f32) (x4 : FVec Ideal S128x64 .f32) (x5 : FVec Ideal S64x32 .f32) (x6 : FVec Ideal S32 .f32) (x7 : FVec Ideal S32x64 .f32) (x8 : FVec Ideal S64 .f32) (x9 : FVec Ideal S64x128 .f32) (x10 : FVec Ideal S128 .f32) (x11 : FVec Ideal S128x256 .f32) (x12 : FVec Ideal S256 .f32) :
    cur (Read.val_main_v26 (F := Ideal) x0 x1 x2 x3 x4 x5 x6 x7 x8 x9 x10 x11 x12) = addRow (mm (dense (dense (cur (Read.val_main_v12 (F := Ideal) x0 x1 x2 x3 x4 x5 x6)) (cur x7) (curv x8)) (cur x9) (curv x10)) (cur x11)) (curv x12) := by
  unfold Read.val_main_v26 Read.val_main_v25 Read.val_main_v24
  refine (cur_addf_rowVec _ x12 _ _).trans ?_
  rw [v23_cur]

/-- The third dense layer. -/
theorem v27_cur (x0 : FVec Ideal S10000x128 .f32) (x1 : FVec Ideal S10000x10000 .f32) (x2 : FVec Ideal S128x256 .f32) (x3 : FVec Ideal S256x128 .f32) (x4 : FVec Ideal S128x64 .f32) (x5 : FVec Ideal S64x32 .f32) (x6 : FVec Ideal S32 .f32) (x7 : FVec Ideal S32x64 .f32) (x8 : FVec Ideal S64 .f32) (x9 : FVec Ideal S64x128 .f32) (x10 : FVec Ideal S128 .f32) (x11 : FVec Ideal S128x256 .f32) (x12 : FVec Ideal S256 .f32) :
    cur (Read.val_main_v27 (F := Ideal) x0 x1 x2 x3 x4 x5 x6 x7 x8 x9 x10 x11 x12) = dense (dense (dense (cur (Read.val_main_v12 (F := Ideal) x0 x1 x2 x3 x4 x5 x6)) (cur x7) (curv x8)) (cur x9) (curv x10)) (cur x11) (curv x12) := by
  unfold Read.val_main_v27 Read.val_main_call5_v0 Read.val_main_call5_cst
  refine (cur_maximumf_bcast _ _).trans ?_
  rw [v26_cur]
  rfl

/-- The third dense layer's result against Wx. -/
theorem v28_cur (x0 : FVec Ideal S10000x128 .f32) (x1 : FVec Ideal S10000x10000 .f32) (x2 : FVec Ideal S128x256 .f32) (x3 : FVec Ideal S256x128 .f32) (x4 : FVec Ideal S128x64 .f32) (x5 : FVec Ideal S64x32 .f32) (x6 : FVec Ideal S32 .f32) (x7 : FVec Ideal S32x64 .f32) (x8 : FVec Ideal S64 .f32) (x9 : FVec Ideal S64x128 .f32) (x10 : FVec Ideal S128 .f32) (x11 : FVec Ideal S128x256 .f32) (x12 : FVec Ideal S256 .f32) (x13 : FVec Ideal S256x128 .f32) :
    cur (Read.val_main_v28 (F := Ideal) x0 x1 x2 x3 x4 x5 x6 x7 x8 x9 x10 x11 x12 x13) = mm (dense (dense (dense (cur (Read.val_main_v12 (F := Ideal) x0 x1 x2 x3 x4 x5 x6)) (cur x7) (curv x8)) (cur x9) (curv x10)) (cur x11) (curv x12)) (cur x13) := by
  unfold Read.val_main_v28
  rw [dot_S10000x256_S256x128_S10000x128_1_0_0_1_n_n_eq]
  refine (cur_dotGeneral none _ x13).trans ?_
  rw [v27_cur]

/-- The third dense layer's result against Wx, plus bx on every row: the reconstruction, over the latent stage. -/
theorem v31_cur (x0 : FVec Ideal S10000x128 .f32) (x1 : FVec Ideal S10000x10000 .f32) (x2 : FVec Ideal S128x256 .f32) (x3 : FVec Ideal S256x128 .f32) (x4 : FVec Ideal S128x64 .f32) (x5 : FVec Ideal S64x32 .f32) (x6 : FVec Ideal S32 .f32) (x7 : FVec Ideal S32x64 .f32) (x8 : FVec Ideal S64 .f32) (x9 : FVec Ideal S64x128 .f32) (x10 : FVec Ideal S128 .f32) (x11 : FVec Ideal S128x256 .f32) (x12 : FVec Ideal S256 .f32) (x13 : FVec Ideal S256x128 .f32) (x14 : FVec Ideal S128 .f32) :
    cur (Read.val_main_v31 (F := Ideal) x0 x1 x2 x3 x4 x5 x6 x7 x8 x9 x10 x11 x12 x13 x14) = addRow (mm (dense (dense (dense (cur (Read.val_main_v12 (F := Ideal) x0 x1 x2 x3 x4 x5 x6)) (cur x7) (curv x8)) (cur x9) (curv x10)) (cur x11) (curv x12)) (cur x13)) (curv x14) := by
  unfold Read.val_main_v31 Read.val_main_v30 Read.val_main_v29
  refine (cur_addf_rowVec _ x14 _ _).trans ?_
  rw [v28_cur]

/-- The reconstruction as the reference computes it: the decoder of the latent code. -/
theorem xbar_cur (x0 : FVec Ideal S10000x128 .f32) (x1 : FVec Ideal S10000x10000 .f32) (x2 : FVec Ideal S128x256 .f32) (x3 : FVec Ideal S256x128 .f32)
    (x4 : FVec Ideal S128x64 .f32) (x5 : FVec Ideal S64x32 .f32) (x6 : FVec Ideal S32 .f32) (x7 : FVec Ideal S32x64 .f32) (x8 : FVec Ideal S64 .f32)
    (x9 : FVec Ideal S64x128 .f32) (x10 : FVec Ideal S128 .f32) (x11 : FVec Ideal S128x256 .f32) (x12 : FVec Ideal S256 .f32) (x13 : FVec Ideal S256x128 .f32) (x14 : FVec Ideal S128 .f32) :
    cur (Read.val_main_v31 (F := Ideal) x0 x1 x2 x3 x4 x5 x6 x7 x8 x9 x10 x11 x12 x13 x14)
      = decode (latent (cur x1) (pass2 (cur x1) (pass1R (cur x1) (cur x0) (cur x2) (cur x3)) (cur x4)) (cur x5) (curv x6))
          (cur x7) (curv x8) (cur x9) (curv x10) (cur x11) (curv x12) (cur x13) (curv x14) := by
  rw [v31_cur, z_cur]
  rfl

end Cert.ReferenceIdeal.RefValue

end
-- ==== Proof.Finite.lean ====
/-
  From the precondition to "the adjacency matrix, the features and the first weight matrix hold real numbers".

  The precondition is a conjunction of fifteen facts, one per input array: every entry is below positive infinity in
  absolute value. Each fact is a reduction by "and" of a one-bit array of comparisons, and the fifteen one-bit results
  are joined by "and" in a left-nested chain. A conjunction that is 1 has both sides 1, so the three innermost facts
  (the first three arrays) follow by peeling the outer ones. A reduction by "and" that is 1 has a 1 at every entry;
  at the ideal instance the comparison is the order of the extended reals, the absolute value is max x (-x), and the
  bit pattern of positive infinity is the top element: so max x (-x) < ⊤, which excludes both infinities. The entry
  fact is proved once for an array of any shape, so nothing depends on the extents.
-/
import proofs.«163469_g27393301414357_cont_9to1_1617_3_alg».proof.Pre_finite_inputs
import proofs.«163469_g27393301414357_cont_9to1_1617_3_alg».proof.Proof.Gen.Pre_finite_inputs
import proofs.«163469_g27393301414357_cont_9to1_1617_3_alg».proof.Proof.Mat
import Idealize.ShloMosaic.Lib.ReduceAll
import Idealize.ShloMosaic.Lib.IdealHost

noncomputable section

namespace Cert.Finite

open Idealize.ShloMosaic Idealize.ShloMosaic.ValueIdx Cert.Mat

/-- A rank-0 array has one index. -/
instance subsingleton_scalar_idx : Subsingleton (⟨0, ![]⟩ : Shape).Idx := ⟨fun a b => funext fun d => d.elim0⟩

/-- The f32 pattern of positive infinity is the top extended real. -/
private theorem ofBits_inf : Ideal.ofBits .f32 0x7F800000#32 = (⊤ : EReal) := by simp [Ideal.ofBits, Ideal.ieee]

/-- An extended real whose absolute value is below the top is a real number. -/
private theorem real_of_abs_lt_top (x : EReal) (h : max x (-x) < ⊤) : ∃ r : ℝ, x = (r : EReal) := by
  induction x using EReal.rec with
  | bot => simp at h
  | coe r => exact ⟨r, rfl⟩
  | top => simp at h

private theorem ofBool_eq_one {b : Bool} : BitVec.ofBool b = 1#1 ↔ b = true := by cases b <;> decide

/-- "All entries are below infinity in absolute value", read back at one entry, for an array of any shape. -/
theorem real_of_all_lt_inf {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have h1 := Host.reduce_andi_all _ _ hr hu ix0 e i
  rw [cmpf_apply, broadcastInDim_scalar_apply, constant_apply, ofBits_inf] at h1
  refine real_of_abs_lt_top (x i) ?_
  have h2 : Ideal.cmp .olt (max (x i) (-(x i))) ⊤ = 1#1 := h1
  unfold Ideal.cmp at h2
  exact of_decide_eq_true (ofBool_eq_one.1 h2)

/-- An entrywise "and" of one-bit arrays that is 1 at an index has both operands 1 there. -/
private theorem andi_at {s : Shape} (a b : IVec s 1) (i : s.Idx) (h : andi a b i = 1#1) : a i = 1#1 ∧ b i = 1#1 :=
  IntOp.andi_eq_one.1 h

/-- If the precondition's predicate is all ones on fifteen arrays, the first three hold real numbers. -/
theorem isReal_of_fn (a0 : FVec Ideal ⟨2, ![10000, 128]⟩ .f32) (a1 : FVec Ideal ⟨2, ![10000, 10000]⟩ .f32) (a2 : FVec Ideal ⟨2, ![128, 256]⟩ .f32)
    (a3 : FVec Ideal ⟨2, ![256, 128]⟩ .f32) (a4 : FVec Ideal ⟨2, ![128, 64]⟩ .f32) (a5 : FVec Ideal ⟨2, ![64, 32]⟩ .f32) (a6 : FVec Ideal ⟨1, ![32]⟩ .f32)
    (a7 : FVec Ideal ⟨2, ![32, 64]⟩ .f32) (a8 : FVec Ideal ⟨1, ![64]⟩ .f32) (a9 : FVec Ideal ⟨2, ![64, 128]⟩ .f32) (a10 : FVec Ideal ⟨1, ![128]⟩ .f32)
    (a11 : FVec Ideal ⟨2, ![128, 256]⟩ .f32) (a12 : FVec Ideal ⟨1, ![256]⟩ .f32) (a13 : FVec Ideal ⟨2, ![256, 128]⟩ .f32) (a14 : FVec Ideal ⟨1, ![128]⟩ .f32)
    (h : Cert.Pre_finite_inputs.fn (F := Ideal) a0 a1 a2 a3 a4 a5 a6 a7 a8 a9 a10 a11 a12 a13 a14 = fun _ => 1#1) :
    IsReal (cur a1) ∧ IsReal (cur a0) ∧ IsReal (cur a2) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  -- the chain is (((c0 ∧ c1) ∧ c2) ∧ c3) ∧ … ∧ c14: twelve outer conjuncts are peeled to reach (c0 ∧ c1) ∧ c2
  have h13 := (andi_at _ _ _ (andi_at _ _ _ (andi_at _ _ _ (andi_at _ _ _ (andi_at _ _ _ (andi_at _ _ _
    (andi_at _ _ _ (andi_at _ _ _ (andi_at _ _ _ (andi_at _ _ _ (andi_at _ _ _ (andi_at _ _ _ h0).1).1).1).1).1).1).1).1).1).1).1).1
  obtain ⟨h8, h12⟩ := andi_at _ _ _ h13
  obtain ⟨h3, h7⟩ := andi_at _ _ _ h8
  exact ⟨fun i j => real_of_all_lt_inf a1 _ _ _ h7 (ix2 i j), fun i j => real_of_all_lt_inf a0 _ _ _ h3 (ix2 i j),
    fun i j => real_of_all_lt_inf a2 _ _ _ h12 (ix2 i j)⟩

end Cert.Finite
-- ==== Proof.lean ====
/-
  A graph autoencoder's forward pass: the Pallas kernel against its jnp reference, over the extended reals.

  With A the adjacency matrix and X the features, the reference computes three graph layers H ↦ relu (A·(H·W)),
  the latent code z = H₃·Wz + bz, and a decoder of four dense layers; its results are the reconstruction and z.
  The kernel runs three passes over blocks of 400 rows of A: pass one leaves S₂ = relu ((A·X)·W₁)·W₂, pass two
  S₃ = relu (A·S₂)·W₃, pass three z = relu (A·S₃)·Wz + bz and the decoder of z. Its products accumulate into zero
  arrays and its narrowings to a shorter float format are the identity on extended reals, so each pass is a chain of
  matrix operations whose rows depend on the same rows of A only, and the 25 blocks of rows cover each output
  (KBody, KRegion0–2, KValue). The reference's run is the same chain with (A·X)·W₁ grouped as A·(X·W₁)
  (RefValue). The two groupings agree because A, X and W₁ hold real numbers (Finite: the precondition says every
  input is finite), and products of reals distribute over finite sums (Mat).

  The three frames are the programs' runs with the results dropped; the idealization rewrote nothing.
-/
import proofs.«163469_g27393301414357_cont_9to1_1617_3_alg».proof.Defs
import proofs.«163469_g27393301414357_cont_9to1_1617_3_alg».proof.Proof.Gen.Kernel
import proofs.«163469_g27393301414357_cont_9to1_1617_3_alg».proof.Proof.Gen.Kernel.Frame
import proofs.«163469_g27393301414357_cont_9to1_1617_3_alg».proof.Proof.Gen.KernelIdeal
import proofs.«163469_g27393301414357_cont_9to1_1617_3_alg».proof.Proof.Gen.KernelIdeal.Frame
import proofs.«163469_g27393301414357_cont_9to1_1617_3_alg».proof.Proof.Gen.ReferenceIdeal
import proofs.«163469_g27393301414357_cont_9to1_1617_3_alg».proof.Proof.Gen.ReferenceIdeal.Run
import proofs.«163469_g27393301414357_cont_9to1_1617_3_alg».proof.Proof.Gen.ReferenceIdeal.Read
import proofs.«163469_g27393301414357_cont_9to1_1617_3_alg».proof.Proof.Gen.Pre_finite_inputs
import proofs.«163469_g27393301414357_cont_9to1_1617_3_alg».proof.Proof.KValue
import proofs.«163469_g27393301414357_cont_9to1_1617_3_alg».proof.Proof.RefValue
import proofs.«163469_g27393301414357_cont_9to1_1617_3_alg».proof.Proof.Finite
import Idealize.ShloMosaic.Adequacy
import Idealize.ShloMosaic.Init

set_option maxRecDepth 16384

noncomputable section

namespace Cert.Proof

open Idealize.ShloMosaic Idealize.SL.Sem Cert.Mat Cert.Gae

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the reconstruction at the decoder of z and the latent output at z, where
    z = relu (A·S₃)·Wz + bz, S₃ = relu (A·S₂)·W₃ and S₂ = relu ((A·X)·W₁)·W₂ = relu (A·(X·W₁))·W₂. -/
theorem algebraic : Cert.algebraic_KernelIdeal_ReferenceIdeal := by
  intro m ρ m' ρ' hpre hagree
  refine ⟨fun c => uncur (Cert.KernelIdeal.Result.xK m c), fun c => uncur (Cert.KernelIdeal.Result.zK m c),
    Cert.KernelIdeal.Result.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    obtain ⟨hA, hX, hW⟩ := Cert.Finite.isReal_of_fn _ _ _ _ _ _ _ _ _ _ _ _ _ _ _ (hpre c)
    refine (Cert.ReferenceIdeal.Read.val_main_v31_eq (F := Ideal) _ _ _ _ _ _ _ _ _ _ _ _ _ _ _).trans ?_
    refine cur_injective ?_
    rw [Cert.ReferenceIdeal.RefValue.xbar_cur, h0, h1, h2, h3, h4, h5, h6, h7, h8, h9, h10, h11, h12, h13, h14,
      ← pass1K_eq_pass1R _ _ _ _ hA hX hW]
    rfl
  · obtain ⟨h0, h1, h2, h3, h4, h5, h6, -⟩ := hagree c
    obtain ⟨hA, hX, hW⟩ := Cert.Finite.isReal_of_fn _ _ _ _ _ _ _ _ _ _ _ _ _ _ _ (hpre c)
    refine (Cert.ReferenceIdeal.Read.val_main_v12_eq (F := Ideal) _ _ _ _ _ _ _).trans ?_
    refine cur_injective ?_
    rw [Cert.ReferenceIdeal.RefValue.z_cur, h0, h1, h2, h3, h4, h5, h6, ← pass1K_eq_pass1R _ _ _ _ hA hX hW]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
